-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x16 : Shape := ⟨2, ![1600000, 16]⟩
abbrev S128x16 : Shape := ⟨2, ![128, 16]⟩
abbrev S1600000 : Shape := ⟨1, ![1600000]⟩
abbrev S48x64 : Shape := ⟨2, ![48, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S1600000x16 : S_.BroadcastsInDim S1600000x16 (![] : Fin 0 → Fin S1600000x16.rank)
  reducesTo_S1600000x16_S_d0_1 : S1600000x16.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg4 : IVec S1600000 32) (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg4 main_v39
  let main_c_15 : IVec S_ 1 := constantI S_ 1 1#1
  let main_v41 : IVec S_ 1 := (fun x v => Host.reduce IntOp.andi x v reducesTo_S1600000_S_d0 h_S_) main_v40 main_c_15
  let main_v42 : IVec S_ 1 := andi main_v38 main_v41
  main_v42

def fn_part1 {F : FTy → Type} [FloatOps F] (main_arg4 : IVec S1600000 32) (main_arg5 : FVec F S48x64 .f32) (main_arg6 : FVec F S64 .f32) (main_arg7 : FVec F S64x16 .f32) (main_arg8 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S48x64 .f32 := Host.absf main_arg5
  let main_cst_6 : FVec F S_ .f32 := constant S_ .f32 0x7F800000#32
  let main_v20 : FVec F S48x64 .f32 := broadcastInDim S48x64 ![] bcast_S_S48x64 main_cst_6
  let main_v21 : IVec S48x64 1 := cmpf .olt main_v19 main_v20
  let main_c_7 : IVec S_ 1 := constantI S_ 1 1#1
  let main_v22 : IVec S_ 1 := (fun x v => Host.reduce IntOp.andi x v reducesTo_S48x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg4 main_arg8 main_v33

def fn {F : FTy → Type} [FloatOps F] (main_arg0 : FVec F S1600000x16 .f32) (main_arg1 : FVec F S1600000x16 .f32) (main_arg2 : FVec F S1600000x16 .f32) (main_arg3 : FVec F S128x16 .f32) (main_arg4 : IVec S1600000 32) (main_arg5 : FVec F S48x64 .f32) (main_arg6 : FVec F S64 .f32) (main_arg7 : FVec F S64x16 .f32) (main_arg8 : FVec F S16 .f32) : IVec S_ 1 :=
  let main_v0 : FVec F S1600000x16 .f32 := Host.absf main_arg0
  let main_cst : FVec F S_ .f32 := constant S_ .f32 0x7F800000#32
  let main_v1 : FVec F S1600000x16 .f32 := broadcastInDim S1600000x16 ![] bcast_S_S1600000x16 main_cst
  let main_v2 : IVec S1600000x16 1 := cmpf .olt main_v0 main_v1
  let main_c : IVec S_ 1 := constantI S_ 1 1#1
  let main_v3 : IVec S_ 1 := (fun x v => Host.reduce IntOp.andi x v reducesTo_S1600000x16_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1600000x16 .f32 := Host.absf main_arg2
  let main_cst_2 : FVec F S_ .f32 := constant S_ .f32 0x7F800000#32
  let main_v10 : FVec F S1600000x16 .f32 := broadcastInDim S1600000x16 ![] bcast_S_S1600000x16 main_cst_2
  let main_v11 : IVec S1600000x16 1 := cmpf .olt main_v9 main_v10
  let main_c_3 : IVec S_ 1 := constantI S_ 1 1#1
  let main_v12 : IVec S_ 1 := (fun x v => Host.reduce IntOp.andi x v reducesTo_S1600000x16_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_arg7 main_arg8 main_v13 main_v16
-- ==== Kernel.lean ====
abbrev S1600000x16 : Shape := ⟨2, ![1600000, 16]⟩
abbrev S128x16 : Shape := ⟨2, ![128, 16]⟩
abbrev S1600000 : Shape := ⟨1, ![1600000]⟩
abbrev S48x64 : Shape := ⟨2, ![48, 64]⟩
abbrev S64 : Shape := ⟨1, ![64]⟩
abbrev S64x16 : Shape := ⟨2, ![64, 16]⟩
abbrev S16 : Shape := ⟨1, ![16]⟩
abbrev S_ : Shape := ⟨0, ![]⟩
abbrev S200000x128 : Shape := ⟨2, ![200000, 128]⟩
abbrev S200000x8 : Shape := ⟨2, ![200000, 8]⟩
abbrev S16x64 : Shape := ⟨2, ![16, 64]⟩
abbrev S128x64 : Shape := ⟨2, ![128, 64]⟩
abbrev S1x64 : Shape := ⟨2, ![1, 64]⟩
abbrev S2000x128 : Shape := ⟨2, ![2000, 128]⟩
abbrev S2000x8 : Shape := ⟨2, ![2000, 8]⟩
abbrev S2000x16 : Shape := ⟨2, ![2000, 16]⟩
abbrev S2000x1 : Shape := ⟨2, ![2000, 1]⟩
abbrev S2000x64 : Shape := ⟨2, ![2000, 64]⟩
abbrev S1x16 : Shape := ⟨2, ![1, 16]⟩

abbrev nBuf : Space → Nat
  | .hbm => 34
  | .vmem => 15
  | .smem => 0
  | _ => 0

abbrev bufTy : (tb : Table) → Fin (tcTables nBuf tb) → BufTy
  | .hbm, ⟨0, _⟩ => ⟨S1600000x16, .f32⟩
  | .hbm, ⟨1, _⟩ => ⟨S1600000x16, .f32⟩
  | .hbm, ⟨2, _⟩ => ⟨S1600000x16, .f32⟩
  | .hbm, ⟨3, _⟩ => ⟨S128x16, .f32⟩
  | .hbm, ⟨4, _⟩ => ⟨S1600000, .i32⟩
  | .hbm, ⟨5, _⟩ => ⟨S48x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S200000x128, .f32⟩
  | .hbm, ⟨18, _⟩ => ⟨S200000x128, .f32⟩
  | .hbm, ⟨19, _⟩ => ⟨S200000x128, .f32⟩
  | .hbm, ⟨20, _⟩ => ⟨S200000x8, .i32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S128x64, .f32⟩
  | .hbm, ⟨25, _⟩ => ⟨S1x64, .f32⟩
  | .hbm, ⟨26, _⟩ => ⟨S128x64, .f32⟩
  | .hbm, ⟨27, _⟩ => ⟨S128x64, .f32⟩
  | .hbm, ⟨28, _⟩ => ⟨S16x64, .bf16⟩
  | .hbm, ⟨29, _⟩ => ⟨S16x64, .bf16⟩
  | .hbm, ⟨30, _⟩ => ⟨S128x64, .bf16⟩
  | .hbm, ⟨31, _⟩ => ⟨S64x16, .bf16⟩
  | .hbm, ⟨32, _⟩ => ⟨S200000x128, .f32⟩
  | .hbm, ⟨33, _⟩ => ⟨S1600000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x8, .i32⟩
  | .local _ .vmem, ⟨7, _⟩ => ⟨S2000x8, .i32⟩
  | .local _ .vmem, ⟨8, _⟩ => ⟨S16x64, .bf16⟩
  | .local _ .vmem, ⟨9, _⟩ => ⟨S16x64, .bf16⟩
  | .local _ .vmem, ⟨10, _⟩ => ⟨S128x64, .bf16⟩
  | .local _ .vmem, ⟨11, _⟩ => ⟨S64x16, .bf16⟩
  | .local _ .vmem, ⟨12, _⟩ => ⟨S16, .f32⟩
  | .local _ .vmem, ⟨13, _⟩ => ⟨S2000x128, .f32⟩
  | .local _ .vmem, ⟨14, _⟩ => ⟨S2000x128, .f32⟩
  | _, _ => ⟨S1600000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1600000 : S_.BroadcastsInDim S1600000 (![] : Fin 0 → Fin S1600000.rank)
  shapeCasts_S1600000x16_S200000x128 : S1600000x16.ShapeCasts S200000x128
  shapeCasts_S1600000_S200000x8 : S1600000.ShapeCasts S200000x8
  slices_S48x64_S16x64_0_0 : S48x64.Slices ![0, 0] S16x64
  slices_S48x64_S16x64_16_0 : S48x64.Slices ![16, 0] S16x64
  slices_S48x64_S16x64_32_0 : S48x64.Slices ![32, 0] S16x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16_S16_0 : ∀ a, (![0] : Fin 1 → Nat) a + S16.size a ≤ S16.size a
  h_S16 : 0 < S16.numel
  slices_S2000x128_o0_0_S2000x16 : S2000x128.Slices ![0, 0] S2000x16
  slices_S2000x8_o0_0_S2000x1 : S2000x8.Slices ![0, 0] S2000x1
  iota_S2000x128_d1_w32 : S2000x128.Iotas .tc 32 [1]
  broadcasts_S2000x1_S2000x128 : S2000x1.Broadcasts S2000x128
  natLt_1_32 : 1 < 32
  shapeCasts_S16_S1x16 : S16.ShapeCasts S1x16
  broadcasts_S1x16_S2000x16 : S1x16.Broadcasts S2000x16
  inb_S2000x128_S2000x16_0_0 : ∀ a, (![0, 0] : Fin 2 → Nat) a + S2000x16.size a ≤ S2000x128.size a
  h_S2000x16 : 0 < S2000x16.numel
  slices_S2000x128_o0_16_S2000x16 : S2000x128.Slices ![0, 16] S2000x16
  slices_S2000x8_o0_1_S2000x1 : S2000x8.Slices ![0, 1] S2000x1
  inb_S2000x128_S2000x16_0_16 : ∀ a, (![0, 16] : Fin 2 → Nat) a + S2000x16.size a ≤ S2000x128.size a
  slices_S2000x128_o0_32_S2000x16 : S2000x128.Slices ![0, 32] S2000x16
  slices_S2000x8_o0_2_S2000x1 : S2000x8.Slices ![0, 2] S2000x1
  inb_S2000x128_S2000x16_0_32 : ∀ a, (![0, 32] : Fin 2 → Nat) a + S2000x16.size a ≤ S2000x128.size a
  slices_S2000x128_o0_48_S2000x16 : S2000x128.Slices ![0, 48] S2000x16
  slices_S2000x8_o0_3_S2000x1 : S2000x8.Slices ![0, 3] S2000x1
  inb_S2000x128_S2000x16_0_48 : ∀ a, (![0, 48] : Fin 2 → Nat) a + S2000x16.size a ≤ S2000x128.size a
  slices_S2000x128_o0_64_S2000x16 : S2000x128.Slices ![0, 64] S2000x16
  slices_S2000x8_o0_4_S2000x1 : S2000x8.Slices ![0, 4] S2000x1
  inb_S2000x128_S2000x16_0_64 : ∀ a, (![0, 64] : Fin 2 → Nat) a + S2000x16.size a ≤ S2000x128.size a
  slices_S2000x128_o0_80_S2000x16 : S2000x128.Slices ![0, 80] S2000x16
  slices_S2000x8_o0_5_S2000x1 : S2000x8.Slices ![0, 5] S2000x1
  inb_S2000x128_S2000x16_0_80 : ∀ a, (![0, 80] : Fin 2 → Nat) a + S2000x16.size a ≤ S2000x128.size a
  slices_S2000x128_o0_96_S2000x16 : S2000x128.Slices ![0, 96] S2000x16
  slices_S2000x8_o0_6_S2000x1 : S2000x8.Slices ![0, 6] S2000x1
  inb_S2000x128_S2000x16_0_96 : ∀ a, (![0, 96] : Fin 2 → Nat) a + S2000x16.size a ≤ S2000x128.size a
  slices_S2000x128_o0_112_S2000x16 : S2000x128.Slices ![0, 112] S2000x16
  slices_S2000x8_o0_7_S2000x1 : S2000x8.Slices ![0, 7] S2000x1
  inb_S2000x128_S2000x16_0_112 : ∀ a, (![0, 112] : Fin 2 → Nat) a + S2000x16.size a ≤ S2000x128.size a
  shapeCasts_S200000x128_S1600000x16 : S200000x128.ShapeCasts S1600000x16
  dot_S128x16_S16x64_S128x64_1_0_0_1_n_n_wf : DotDims.WF S128x16 S16x64 S128x64 [1] [0] [0] [1] [] []
  dot_S2000x16_S16x64_S2000x64_1_0_0_1_n_n_wf : DotDims.WF S2000x16 S16x64 S2000x64 [1] [0] [0] [1] [] []
  dot_S2000x128_S128x64_S2000x64_1_0_0_1_n_n_wf : DotDims.WF S2000x128 S128x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .f32 = 32 ∨ (Rect.block (s := S200000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x8.size a ≤ S200000x8.size a
  hwx0_3 : ∀ i : grid0.Coords, EltTy.bits .i32 = 32 ∨ (Rect.block (s := S200000x8) S2000x8.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .bf16 = 32 ∨ (Rect.block (s := S16x64) S16x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .bf16 = 32 ∨ (Rect.block (s := S16x64) S16x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .bf16 = 32 ∨ (Rect.block (s := S64x16) S64x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S200000x128.size a
  hwx0_9 : ∀ i : grid0.Coords, EltTy.bits .f32 = 32 ∨ (Rect.block (s := S200000x128) S2000x128.size (cc0_transform_9 i) (hinb0_9 i)).WholeWords (EltTy.packing .f32)

variable [Facts₀]

def dot_S128x16_S16x64_S128x64_1_0_0_1_n_n : DotDims S128x16 S16x64 S128x64 where
  lhsContracting := [1]
  rhsContracting := [0]
  lhsNonContracting := [0]
  rhsNonContracting := [1]
  lhsBatch := []
  rhsBatch := []
  wf := dot_S128x16_S16x64_S128x64_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x16 : Shape := ⟨2, ![1600000, 16]⟩
abbrev S128x16 : Shape := ⟨2, ![128, 16]⟩
abbrev S1600000 : Shape := ⟨1, ![1600000]⟩
abbrev S48x64 : Shape := ⟨2, ![48, 64]⟩
abbrev S64 : Shape := ⟨1, ![64]⟩
abbrev S64x16 : Shape := ⟨2, ![64, 16]⟩
abbrev S16 : Shape := ⟨1, ![16]⟩
abbrev S_ : Shape := ⟨0, ![]⟩
abbrev S1600000x1 : Shape := ⟨2, ![1600000, 1]⟩
abbrev S1600000x48 : Shape := ⟨2, ![1600000, 48]⟩
abbrev S1600000x64 : Shape := ⟨2, ![1600000, 64]⟩
abbrev S1x64 : Shape := ⟨2, ![1, 64]⟩
abbrev S1x16 : Shape := ⟨2, ![1, 16]⟩

abbrev nBuf : Space → Nat
  | .hbm => 31
  | .vmem => 0
  | .smem => 0
  | _ => 0

abbrev bufTy : (tb : Table) → Fin (tcTables nBuf tb) → BufTy
  | .hbm, ⟨0, _⟩ => ⟨S1600000x16, .f32⟩
  | .hbm, ⟨1, _⟩ => ⟨S1600000x16, .f32⟩
  | .hbm, ⟨2, _⟩ => ⟨S1600000x16, .f32⟩
  | .hbm, ⟨3, _⟩ => ⟨S128x16, .f32⟩
  | .hbm, ⟨4, _⟩ => ⟨S1600000, .i32⟩
  | .hbm, ⟨5, _⟩ => ⟨S48x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1600000x16, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x16, .f32⟩
  | .hbm, ⟨19, _⟩ => ⟨S1600000x48, .f32⟩
  | .hbm, ⟨20, _⟩ => ⟨S1600000x64, .f32⟩
  | .hbm, ⟨21, _⟩ => ⟨S1x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S1600000x64, .f32⟩
  | .hbm, ⟨26, _⟩ => ⟨S1600000x64, .f32⟩
  | .hbm, ⟨27, _⟩ => ⟨S1600000x16, .f32⟩
  | .hbm, ⟨28, _⟩ => ⟨S1x16, .f32⟩
  | .hbm, ⟨29, _⟩ => ⟨S1600000x16, .f32⟩
  | .hbm, ⟨30, _⟩ => ⟨S1600000x16, .f32⟩
  | _, _ => ⟨S1600000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x16_S1600000x48_d1 : Shape.Concatenates [S1600000x16, S1600000x16, S1600000x16] S1600000x48 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  gather_S128x16_S1600000x1_S1600000x16_1_0_n_n_0_1_116_wf : GatherDims.WF S128x16 S1600000x1 S1600000x16 [1] [0] [] [0] [] 1 ![1, 16]
  dot_S1600000x48_S48x64_S1600000x64_1_0_0_1_n_n_wf : DotDims.WF S1600000x48 S48x64 S1600000x64 [1] [0] [0] [1] [] []
  dot_S1600000x64_S64x16_S1600000x16_1_0_0_1_n_n_wf : DotDims.WF S1600000x64 S64x16 S1600000x16 [1] [0] [0] [1] [] []

variable [Facts₀]

def gather_S128x16_S1600000x1_S1600000x16_1_0_n_n_0_1_116 : GatherDims S128x16 S1600000x1 S1600000x16 where
  offsetDims := [1]
  collapsedSliceDims := [0]
  operandBatchingDims := []
  startIndicesBatchingDims := []
  startIndexMap := [0]
  indexVectorDim := 1
  sliceSizes := ![1, 16]
  wf := gather_S128x16_S1600000x1_S1600000x16_1_0_n_n_0_1_116_wf
def dot_S1600000x48_S48x64_S1600000x64_1_0_0_1_n_n : DotDims S1600000x48 S48x64 S1600000x64 where
  lhsContracting := [1]
  rhsContracting := [0]
  lhsNonContracting := [0]
  rhsNonContracting := [1]
  lhsBatch := []
  rhsBatch := []
  wf := dot_S1600000x48_S48x64_S1600000x64_1_0_0_1_n_n_wf
def dot_S1600000x64_S64x16_S1600000x16_1_0_0_1_n_n : DotDims S1600000x64 S64x16 S1600000x16 where
  lhsContracting := [1]
  rhsContracting := [0]
  lhsNonContracting := [0]
  rhsNonContracting := [1]
  lhsBatch := []
  rhsBatch := []
  wf := dot_S1600000x64_S64x16_S1600000x16_1_0_0_1_n_n_wf

class Facts : Prop extends Facts₀ where

variable [Facts]
-- ==== Proof.EdgeSpec.lean ====
/-
  The edge model both programs compute, stated once over the extended reals.

  For edge e (of 1 600 000) with graph id b = batch[e]:
      x      = [dest[e] - src[e], edge_attr[e], u[b]]            (48 numbers)
      hid_h  = max (sum_q x_q * W1[q, h] + b1[h]) 0              (64 numbers)
      out_j  = sum_h hid_h * W2[h, j] + b2[j]                    (16 numbers)
  The kernel splits the 48-term sum into its three 16-term thirds and pushes the third one (the u row) through a
  table T[g, h] = sum_i u[g, i] * W1[32 + i, h] + b1[h], chosen by a one-hot row: sum_g [b = g] * T[g, h] = T[b, h].
  Only associativity and commutativity of the extended reals' addition, and 0 * x = 0, 1 * x = x, are used: no
  finiteness of any float input is needed.
-/
import Idealize.ShloMosaic.PureOps.Ideal
import Idealize.ShloMosaic.Lib.ValueIdx

noncomputable section

open scoped BigOperators

namespace Cert.EdgeModel

open Idealize.ShloMosaic Idealize.ShloMosaic.ValueIdx

/-- Hidden unit h of one edge: the first two thirds of the first layer's sum, written as two 16-term sums over the
    difference row d and the attribute row e, plus the third third's contribution T h (bias included), rectified. -/
def hidden (d e : Fin 16 → EReal) (A B : Fin 16 → Fin 64 → EReal) (T : Fin 64 → EReal) (h : Fin 64) : EReal :=
  max (((∑ i : Fin 16, d i * A i h) + ∑ i : Fin 16, e i * B i h) + T h) 0

/-- Output feature j of one edge: the second layer over the 64 hidden units, plus its bias. -/
def edgeOut (d e : Fin 16 → EReal) (A B : Fin 16 → Fin 64 → EReal) (T : Fin 64 → EReal)
    (W : Fin 64 → Fin 16 → EReal) (c : Fin 16 → EReal) (j : Fin 16) : EReal :=
  (∑ h : Fin 64, hidden d e A B T h * W h j) + c j

/-- The row of u a graph id reads: the id as a signed word, negative ids at 0, ids past the table at its last row. -/
def rowOf (b : BitVec 32) : Fin 128 := ⟨min b.toInt.toNat 127, by omega⟩

/-- The table the kernel builds on the host: row g of u through the last third of W1, bias added. -/
def table (u : (⟨2, ![128, 16]⟩ : Shape).Idx → EReal) (w1 : (⟨2, ![48, 64]⟩ : Shape).Idx → EReal)
    (b1 : (⟨1, ![64]⟩ : Shape).Idx → EReal) (g : Fin 128) (h : Fin 64) : EReal :=
  (∑ i : Fin 16, u (ix2 g i) * w1 (ix2 (⟨32 + i.val, by omega⟩ : Fin 48) h)) + b1 (ix1 h)

/-- Edge e's output feature j as a function of the nine argument arrays. -/
def edgeFn (src dest attr : (⟨2, ![1600000, 16]⟩ : Shape).Idx → EReal) (u : (⟨2, ![128, 16]⟩ : Shape).Idx → EReal)
    (batch : (⟨1, ![1600000]⟩ : Shape).Idx → BitVec 32) (w1 : (⟨2, ![48, 64]⟩ : Shape).Idx → EReal)
    (b1 : (⟨1, ![64]⟩ : Shape).Idx → EReal) (w2 : (⟨2, ![64, 16]⟩ : Shape).Idx → EReal)
    (b2 : (⟨1, ![16]⟩ : Shape).Idx → EReal) (e : Fin 1600000) (j : Fin 16) : EReal :=
  edgeOut (fun i => dest (ix2 e i) - src (ix2 e i)) (fun i => attr (ix2 e i))
    (fun i h => w1 (ix2 (⟨i.val, by omega⟩ : Fin 48) h)) (fun i h => w1 (ix2 (⟨16 + i.val, by omega⟩ : Fin 48) h))
    (table u w1 b1 (rowOf (batch (ix1 e))))
    (fun h j => w2 (ix2 h j)) (fun j => b2 (ix1 j)) j

/-- The whole result array [1600000, 16]. -/
def G (src dest attr : (⟨2, ![1600000, 16]⟩ : Shape).Idx → EReal) (u : (⟨2, ![128, 16]⟩ : Shape).Idx → EReal)
    (batch : (⟨1, ![1600000]⟩ : Shape).Idx → BitVec 32) (w1 : (⟨2, ![48, 64]⟩ : Shape).Idx → EReal)
    (b1 : (⟨1, ![64]⟩ : Shape).Idx → EReal) (w2 : (⟨2, ![64, 16]⟩ : Shape).Idx → EReal)
    (b2 : (⟨1, ![16]⟩ : Shape).Idx → EReal) : (⟨2, ![1600000, 16]⟩ : Shape).Idx → EReal :=
  fun y => edgeFn src dest attr u batch w1 b1 w2 b2 ⟨(y 0).val, idx2_lt0 y⟩ ⟨(y 1).val, idx2_lt1 y⟩

theorem G_ix2 (src dest attr : (⟨2, ![1600000, 16]⟩ : Shape).Idx → EReal) (u : (⟨2, ![128, 16]⟩ : Shape).Idx → EReal)
    (batch : (⟨1, ![1600000]⟩ : Shape).Idx → BitVec 32) (w1 : (⟨2, ![48, 64]⟩ : Shape).Idx → EReal)
    (b1 : (⟨1, ![64]⟩ : Shape).Idx → EReal) (w2 : (⟨2, ![64, 16]⟩ : Shape).Idx → EReal)
    (b2 : (⟨1, ![16]⟩ : Shape).Idx → EReal) (e : Fin 1600000) (j : Fin 16) :
    G src dest attr u batch w1 b1 w2 b2 (ix2 e j) = edgeFn src dest attr u batch w1 b1 w2 b2 e j := rfl

/-! ## The two arrangements of the first layer -/

/-- A 48-term sum is its three 16-term thirds. -/
theorem sum_48_thirds (f : Fin 48 → EReal) :
    ∑ q : Fin 48, f q = ((∑ i : Fin 16, f ⟨i.val, by omega⟩) + ∑ i : Fin 16, f ⟨16 + i.val, by omega⟩)
      + ∑ i : Fin 16, f ⟨32 + i.val, by omega⟩ := by
  have h1 := Fin.sum_univ_add (M := EReal) (a := 32) (b := 16) (f : Fin (32 + 16) → EReal)
  have h2 := Fin.sum_univ_add (M := EReal) (a := 16) (b := 16) (fun i : Fin (16 + 16) => f (Fin.castAdd 16 i))
  refine h1.trans ?_
  rw [h2]
  rfl

/-- The reference's arrangement — the whole 48-term sum, then the bias — is the kernel's: two thirds, plus the third
    third with the bias already added to it. -/
theorem first_layer_regroup (a b c β : EReal) : ((a + b) + c) + β = (a + b) + (c + β) := add_assoc _ _ _

/-- A one-hot row picks its entry: the sum over g of [g = g₀] * t g, the indicator as the extended real 0 or 1. -/
theorem sum_onehot (g₀ : Fin 128) (oh : Fin 128 → EReal) (t : Fin 128 → EReal)
    (h1 : oh g₀ = 1) (h0 : ∀ g, g ≠ g₀ → oh g = 0) : ∑ g : Fin 128, oh g * t g = t g₀ := by
  rw [Finset.sum_eq_single g₀ (fun g _ hg => by rw [h0 g hg, zero_mul]) (fun h => absurd (Finset.mem_univ _) h),
    h1, one_mul]

end Cert.EdgeModel

end
-- ==== Proof.GraphId.lean ====
/-
  Graph ids as 32-bit words. An id that is nonnegative as a signed word (its unsigned value below 2^31) is read the
  same way by both programs: the reference's "add 128 if negative" leaves it alone and its gather clamps it to 127
  from above; the kernel's clip to [0, 127] does the same; so both read row min(id, 127) of the table.
-/
import Idealize.ShloMosaic.PureOps.Ideal
import Idealize.ShloMosaic.Lib.ValueIdx
import Idealize.ShloMosaic.Lib.StableHlo.Predicate
import proofs.«403488_j5909875000172_3_alg».proof.Proof.EdgeSpec

noncomputable section

namespace Cert.EdgeModel

open Idealize.ShloMosaic Idealize.ShloMosaic.ValueIdx

/-- Signed "less than" between two words below 2^31 is "less than" of their unsigned values. -/
theorem slt_true_iff {a b : BitVec 32} (ha : a.toNat < 2 ^ 31) (hb : b.toNat < 2 ^ 31) :
    a.slt b = true ↔ a.toNat < b.toNat :=
  (StableHlo.Predicate.ofBool_eq_one_iff _).symm.trans (StableHlo.Predicate.slt_bool_iff_toNat ha hb)

/-- A word that compares signed-greater-or-equal to 0 has its top bit clear. -/
theorem toNat_lt_of_sge_zero (b : BitVec 32) (h : IntOp.cmpi .sge b 0#32 = 1#1) : b.toNat < 2 ^ 31 := by
  unfold IntOp.cmpi at h
  have h2 : (0#32).sle b = true := (StableHlo.Predicate.ofBool_eq_one_iff _).mp h
  have h3 : (0#32 : BitVec 32).toInt ≤ b.toInt := by simpa [BitVec.sle] using h2
  have e0 : (0#32 : BitVec 32).toInt = 0 := by decide
  rw [e0] at h3
  by_contra hlt
  have hm : b.msb = true := by
    rw [BitVec.msb_eq_true_iff_two_mul_ge]; omega
  rw [BitVec.toInt_eq_msb_cond, hm] at h3
  simp at h3
  have := b.isLt
  omega

/-- The reference's negative-index wrap (add the table's height to a negative id) leaves a nonnegative id alone. -/
theorem wrap_of_nonneg (b : BitVec 32) (hb : b.toNat < 2 ^ 31) :
    Scalar.select (IntOp.cmpi .slt b 0#32) (IntOp.addi b 128#32) b = b := by
  have h : IntOp.cmpi .slt b 0#32 ≠ 1#1 := by
    intro h
    have := (StableHlo.Predicate.slt_iff_toNat hb (by decide)).mp h
    simp at this
  exact if_neg h

/-- A nonnegative id read signed is its unsigned value. -/
theorem toInt_toNat_of_nonneg (b : BitVec 32) (hb : b.toNat < 2 ^ 31) : b.toInt.toNat = b.toNat := by
  rw [StableHlo.Predicate.toInt_eq_toNat_of_lt hb]; rfl

/-- The table row of a nonnegative id. -/
theorem rowOf_val (b : BitVec 32) (hb : b.toNat < 2 ^ 31) : (rowOf b).val = min b.toNat 127 := by
  show min b.toInt.toNat 127 = _
  rw [toInt_toNat_of_nonneg b hb]

/-- The kernel's clip of a nonnegative id to [0, 127]. -/
theorem clip_toNat (b : BitVec 32) (hb : b.toNat < 2 ^ 31) :
    (IntOp.minsi 127#32 (IntOp.maxsi 0#32 b)).toNat = min b.toNat 127 := by
  have h127 : (127#32 : BitVec 32).toNat = 127 := by decide
  have h0 : (0#32 : BitVec 32).toNat = 0 := by decide
  have e0 : (b.slt 0#32) = false := by
    rw [Bool.eq_false_iff]; intro h
    have := (slt_true_iff hb (by decide)).mp h
    omega
  unfold IntOp.minsi IntOp.maxsi
  rw [e0]
  simp only [Bool.false_eq_true, if_false]
  by_cases h : (127#32 : BitVec 32).slt b = true
  · rw [if_pos h]
    have := (slt_true_iff (by decide) hb).mp h
    omega
  · rw [if_neg h]
    have := mt (slt_true_iff (a := 127#32) (by decide) hb).mpr h
    omega

end Cert.EdgeModel

end
-- ==== Proof.RefIsSpec.lean ====
/-
  The reference program is the edge model.

  The reference builds, for each edge e, the 48-number row x = [dest[e] - src[e], edge_attr[e], u[batch[e]]] by a
  concatenation along the feature axis, whose last third comes from a gather of rows of u; it then takes
  h = max (x W1 + b1) 0 and returns h W2 + b2. Read at one output element (e, j) this is, term by term, the edge
  model of EdgeSpec: the 48-term sum of the first layer splits into its three 16-term thirds, each third reads one
  piece of the concatenation, and the bias b1 joins the last third, which is then the table row of the edge's graph id.
  The one place where the graph id's value matters is the gather's start index: the reference first adds 128 to a
  negative id and the gather then clamps the signed value into [0, 127]; for an id that is nonnegative as a signed
  word the first step does nothing and the second gives row min(id, 127).
-/
import proofs.«403488_j5909875000172_3_alg».proof.Proof.Gen.ReferenceIdeal.Read
import proofs.«403488_j5909875000172_3_alg».proof.Proof.EdgeSpec
import proofs.«403488_j5909875000172_3_alg».proof.Proof.GraphId
import Idealize.ShloMosaic.Lib.Pipeline.Value
import Idealize.ShloMosaic.Lib.ValueIdx
import Idealize.ShloMosaic.PureOps.Ideal.Laws
noncomputable section
namespace Cert.ReferenceIdeal.RefValue
open Cert.ReferenceIdeal Cert.ReferenceIdeal.Gen Cert.ReferenceIdeal.Read Idealize.ShloMosaic Idealize.ShloMosaic.ValueIdx Cert.EdgeModel

/-! ## The gather of rows of u, read at an index -/

/-- The gather with operand [128, 16], start indices [1600000, 1], axis 0 indexed and collapsed, axis 1 an offset axis of
    full width 16: result element (e, i) is the operand at (r, i), where r is the start index idx[e, 0] read signed and
    clamped into [0, 127]. On operand axis 0 the operand index is the clamped start (no batching coordinate, and no
    offset coordinate since the axis is collapsed); on axis 1 the start is 0 (the axis is not in the start index map)
    and the offset coordinate is the result's coordinate on its one offset axis, i. -/
theorem gather_row {α : Type} (x : S128x16.Idx → α) (idx : IVec S1600000x1 32) (e : Fin 1600000) (i : Fin 16)
    (b : BitVec 32) (hidx : idx (ix2 e (0 : Fin 1)) = b) :
    Host.gather gather_S128x16_S1600000x1_S1600000x16_1_0_n_n_0_1_116 x idx (ix2 e i) = x (ix2 (rowOf b) i) := by
  subst hidx
  unfold Host.gather
  congr 1
  funext a
  refine Fin.ext ?_
  match a with
  | ⟨0, _⟩ =>
    show gather_S128x16_S1600000x1_S1600000x16_1_0_n_n_0_1_116.start (ix2 e i) idx 0 + gather_S128x16_S1600000x1_S1600000x16_1_0_n_n_0_1_116.batchCoord (ix2 e i) 0 + gather_S128x16_S1600000x1_S1600000x16_1_0_n_n_0_1_116.offCoord (ix2 e i) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x16_S1600000x1_S1600000x16_1_0_n_n_0_1_116.startIndexMap from List.mem_singleton.mpr rfl)]
    -- the start index's one component is read at [e, 0]
    have hsi : gather_S128x16_S1600000x1_S1600000x16_1_0_n_n_0_1_116.siIdx (ix2 e i) ⟨List.idxOf (0 : Fin 2) gather_S128x16_S1600000x1_S1600000x16_1_0_n_n_0_1_116.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S128x16_S1600000x1_S1600000x16_1_0_n_n_0_1_116.start (ix2 e i) idx 1 + gather_S128x16_S1600000x1_S1600000x16_1_0_n_n_0_1_116.batchCoord (ix2 e i) 1 + gather_S128x16_S1600000x1_S1600000x16_1_0_n_n_0_1_116.offCoord (ix2 e i) 1 = i.val
    rw [GatherDims.batchCoord_eq_zero _ _ _ List.not_mem_nil]
    unfold GatherDims.start
    rw [dif_neg (show ¬ (1 : Fin 2) ∈ gather_S128x16_S1600000x1_S1600000x16_1_0_n_n_0_1_116.startIndexMap by decide)]
    unfold GatherDims.offCoord
    rw [dif_pos (show (1 : Fin 2) ∈ gather_S128x16_S1600000x1_S1600000x16_1_0_n_n_0_1_116.sKept by decide)]
    simp only [Nat.add_zero, Nat.zero_add]
    rfl

/-- The start index of edge e: the id broadcast to [1600000, 1], after "add 128 if negative"; a nonnegative id is
    left alone, so it is batch[e]. -/
theorem start_row (x4 : IVec S1600000 32) (hb : ∀ e : Fin 1600000, (x4 (ix1 e)).toNat < 2 ^ 31) (e : Fin 1600000) :
    val_main_v6 (F := Ideal) x4 (ix2 e (0 : Fin 1)) = x4 (ix1 e) := by
  rw [val_main_v6_apply, val_main_v5_apply, val_main_v2_apply, val_main_v4_apply, val_main_v1_apply,
    val_main_v3_apply, val_main_c_apply, val_main_c_0_apply]
  have hi : idx_main_v6 (ix2 e (0 : Fin 1)) = ix1 e := funext fun a => Fin.ext (by match a with | ⟨0, _⟩ => rfl)
  rw [hi]
  exact wrap_of_nonneg _ (hb e)

/-! ## The concatenated row x, read one third at a time -/

/-- Columns 0 to 15 of row e are the first piece: dest[e] - src[e]. -/
theorem cat_first (x0 x1 x2 : FVec Ideal S1600000x16 .f32) (x3 : FVec Ideal S128x16 .f32) (x4 : IVec S1600000 32) (e : Fin 1600000) (i : Fin 16) :
    val_main_v8 (F := Ideal) x0 x1 x2 x3 x4 (ix2 e (⟨i.val, by omega⟩ : Fin 48)) = x1 (ix2 e i) - x0 (ix2 e i) := by
  unfold val_main_v8
  refine (concatenate_apply_piece (t := S1600000x48) (1 : Fin 2) _ _ _ 0 ?_ S1600000x16 (val_main_v0 (F := Ideal) x0 x1)
    ?_ rfl 0 ?_ (ix2 e i) ?_ ?_).trans ?_
  · exact (by decide : (0 : Nat) < 3)
  · rfl
  · rfl
  · intro b hb
    match b with
    | ⟨0, _⟩ => rfl
    | ⟨1, _⟩ => exact absurd rfl hb
  · exact Nat.zero_add _
  · rfl

/-- Columns 16 to 31 of row e are the second piece: edge_attr[e]. -/
theorem cat_second (x0 x1 x2 : FVec Ideal S1600000x16 .f32) (x3 : FVec Ideal S128x16 .f32) (x4 : IVec S1600000 32) (e : Fin 1600000) (i : Fin 16) :
    val_main_v8 (F := Ideal) x0 x1 x2 x3 x4 (ix2 e (⟨16 + i.val, by omega⟩ : Fin 48)) = x2 (ix2 e i) := by
  unfold val_main_v8
  refine concatenate_apply_piece (t := S1600000x48) (1 : Fin 2) _ _ _ 1 ?_ S1600000x16 x2 ?_ rfl 16 ?_ (ix2 e i) ?_ ?_
  · exact (by decide : (1 : Nat) < 3)
  · rfl
  · rfl
  · intro b hb
    match b with
    | ⟨0, _⟩ => rfl
    | ⟨1, _⟩ => exact absurd rfl hb
  · rfl

/-- Columns 32 to 47 of row e are the third piece: the gathered row of u, row min(batch[e], 127) for a nonnegative id. -/
theorem cat_third (x0 x1 x2 : FVec Ideal S1600000x16 .f32) (x3 : FVec Ideal S128x16 .f32) (x4 : IVec S1600000 32) (hb : ∀ e : Fin 1600000, (x4 (ix1 e)).toNat < 2 ^ 31) (e : Fin 1600000) (i : Fin 16) :
    val_main_v8 (F := Ideal) x0 x1 x2 x3 x4 (ix2 e (⟨32 + i.val, by omega⟩ : Fin 48))
      = x3 (ix2 (rowOf (x4 (ix1 e))) i) := by
  unfold val_main_v8
  refine (concatenate_apply_piece (t := S1600000x48) (1 : Fin 2) _ _ _ 2 ?_ S1600000x16 (val_main_v7 (F := Ideal) x3 x4)
    ?_ rfl 32 ?_ (ix2 e i) ?_ ?_).trans ?_
  · exact (by decide : (2 : Nat) < 3)
  · rfl
  · rfl
  · intro b hb
    match b with
    | ⟨0, _⟩ => rfl
    | ⟨1, _⟩ => exact absurd rfl hb
  · rfl
  · exact gather_row x3 (val_main_v6 (F := Ideal) x4) e i _ (start_row x4 hb e)

/-! ## The first layer -/

/-- Hidden unit h of edge e in the reference, max (sum_q x_q * W1[q, h] + b1[h]) 0, is the edge model's: the 48-term sum
    is its three thirds, each third reads its piece of x, and ((A + B) + C) + b1[h] = (A + B) + (C + b1[h]), where
    C + b1[h] is the table's entry at the edge's row. -/
theorem hidden_unit (x0 x1 x2 : FVec Ideal S1600000x16 .f32) (x3 : FVec Ideal S128x16 .f32) (x4 : IVec S1600000 32) (x5 : FVec Ideal S48x64 .f32) (x6 : FVec Ideal S64 .f32)
    (hb : ∀ e : Fin 1600000, (x4 (ix1 e)).toNat < 2 ^ 31) (e : Fin 1600000) (h : Fin 64) :
    val_main_v13 (F := Ideal) x0 x1 x2 x3 x4 x5 x6 (ix2 e h)
      = hidden (fun i => x1 (ix2 e i) - x0 (ix2 e i)) (fun i => x2 (ix2 e i))
          (fun i h => x5 (ix2 (⟨i.val, by omega⟩ : Fin 48) h)) (fun i h => x5 (ix2 (⟨16 + i.val, by omega⟩ : Fin 48) h))
          (table x3 x5 x6 (rowOf (x4 (ix1 e)))) h := by
  rw [val_main_v13_apply, val_main_v12_apply, val_main_v9_apply, val_main_v11_apply, val_main_v10_apply,
    val_main_call0_v0_apply, val_main_call0_cst_apply]
  -- the contraction reads x at (e, k) and W1 at (k, h); the broadcast bias reads b1 at h
  have hl : ∀ k : Fin 48, lidx_main_v9 (ix2 e h) k = ix2 e k := fun k => funext fun a => Fin.ext (by
    match a with
    | ⟨0, _⟩ => rfl
    | ⟨1, _⟩ => rfl)
  have hr : ∀ k : Fin 48, ridx_main_v9 (ix2 e h) k = ix2 k h := fun k => funext fun a => Fin.ext (by
    match a with
    | ⟨0, _⟩ => rfl
    | ⟨1, _⟩ => rfl)
  have hbias : idx_main_v10 (idx_main_v11 (ix2 e h)) = ix1 h := funext fun a => Fin.ext (by
    match a with
    | ⟨0, _⟩ => rfl)
  simp only [hl, hr, hbias]
  have hz : (FloatOps.ofBits FTy.f32 0x00000000#32 : Ideal .f32) = 0 := Ideal.ofBits_zero_f32
  rw [Ideal.maximumf_def, Ideal.addf_def, hz, sum_48_thirds]
  unfold EdgeModel.hidden EdgeModel.table
  congr 1
  refine (first_layer_regroup _ _ _ _).trans ?_
  simp only [cat_first, cat_second, cat_third x0 x1 x2 x3 x4 hb]

/-! ## The whole program -/

/-- The reference's result, as a function of its nine arguments, is the edge model G, provided every graph id is
    nonnegative as a signed word: at (e, j) it is the second layer's 64-term sum of the hidden units of edge e against
    W2[·, j], plus b2[j], and each hidden unit is the edge model's (hidden_unit). -/
theorem ref_is_edge_model (x0 x1 x2 : FVec Ideal S1600000x16 .f32) (x3 : FVec Ideal S128x16 .f32) (x4 : IVec S1600000 32)
    (x5 : FVec Ideal S48x64 .f32) (x6 : FVec Ideal S64 .f32) (x7 : FVec Ideal S64x16 .f32) (x8 : FVec Ideal S16 .f32)
    (hb : ∀ e : Fin 1600000, (x4 (ix1 e)).toNat < 2 ^ 31) :
    val_main_v17 (F := Ideal) x0 x1 x2 x3 x4 x5 x6 x7 x8 = G x0 x1 x2 x3 x4 x5 x6 x7 x8 := by
  funext y
  obtain ⟨e, j, rfl⟩ : ∃ (e : Fin 1600000) (j : Fin 16), y = ix2 e j := ⟨y 0, y 1, eq_ix2 y⟩
  rw [G_ix2, val_main_v17_apply, val_main_v14_apply, val_main_v16_apply, val_main_v15_apply, Ideal.addf_def]
  -- the contraction reads the hidden units at (e, k) and W2 at (k, j); the broadcast bias reads b2 at j
  have hl : ∀ k : Fin 64, lidx_main_v14 (ix2 e j) k = ix2 e k := fun k => funext fun a => Fin.ext (by
    match a with
    | ⟨0, _⟩ => rfl
    | ⟨1, _⟩ => rfl)
  have hr : ∀ k : Fin 64, ridx_main_v14 (ix2 e j) k = ix2 k j := fun k => funext fun a => Fin.ext (by
    match a with
    | ⟨0, _⟩ => rfl
    | ⟨1, _⟩ => rfl)
  have hbias : idx_main_v15 (idx_main_v16 (ix2 e j)) = ix1 j := funext fun a => Fin.ext (by
    match a with
    | ⟨0, _⟩ => rfl)
  simp only [hl, hr, hbias, hidden_unit x0 x1 x2 x3 x4 x5 x6 hb]
  rfl

end Cert.ReferenceIdeal.RefValue
end
-- ==== Proof.BatchRange.lean ====
/-
  The added precondition read back: every graph id is nonnegative as a signed word.

  The precondition is a conjunction of "all" reductions; its last conjunct is the reduction by "and" of
  (batch >= 0), compared signed, over all 1 600 000 ids. If the whole predicate is 1 then that conjunct is 1, every
  compared bit is 1, and an id that is signed-greater-or-equal to 0 has its top bit clear.
-/
import proofs.«403488_j5909875000172_3_alg».proof.Proof.Gen.Pre_finite_inputs
import proofs.«403488_j5909875000172_3_alg».proof.Proof.GraphId
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Idealize.ShloMosaic.ValueIdx Cert.EdgeModel

instance : Subsingleton S_.Idx := ⟨fun a b => funext fun d => d.elim0⟩

/-- Under the precondition every id's unsigned value is below 2^31. -/
theorem batch_nonneg {F : FTy → Type} [FloatOps F] (a0 a1 a2 : FVec F S1600000x16 .f32) (a3 : FVec F S128x16 .f32)
    (a4 : IVec S1600000 32) (a5 : FVec F S48x64 .f32) (a6 : FVec F S64 .f32) (a7 : FVec F S64x16 .f32)
    (a8 : FVec F S16 .f32) (h : fn (F := F) a0 a1 a2 a3 a4 a5 a6 a7 a8 = fun _ => 1#1) (e : Fin 1600000) :
    (a4 (ix1 e)).toNat < 2 ^ 31 := by
  have h0 := congrFun h ix0
  dsimp only [fn, fn_part1, fn_part2] at h0
  have h1 := (IntOp.andi_eq_one.mp h0).2
  exact toNat_lt_of_sge_zero _ (Host.reduce_andi_all _ _ _ _ ix0 h1 (ix1 e))

end Cert.Pre_finite_inputs.Decode

end
-- ==== Proof.BlockSpec.lean ====
/-
  What the kernel's body leaves in its output block, as a function of the nine input blocks.

  A block of the packed layout is [2000, 128]: packed row r holds the eight consecutive edges 8 r + k (k < 8),
  edge k's sixteen features in lanes 16 k .. 16 k + 15. For each k the body slices lanes 16 k .. of the difference
  and attribute blocks and column k of the id block, builds the 128-wide indicator row of the id, and runs the two
  layers of the edge model on that sub-row; the result goes to lanes 16 k .. of the output block.
-/
import Idealize.ShloMosaic.PureOps.Ideal
import Idealize.ShloMosaic.Lib.ValueIdx
import Idealize.ShloMosaic.Lib.StableHlo.Predicate
import proofs.«403488_j5909875000172_3_alg».proof.Proof.EdgeSpec
import proofs.«403488_j5909875000172_3_alg».proof.Proof.GraphId

noncomputable section

open scoped BigOperators

namespace Cert.EdgeModel

open Idealize.ShloMosaic Idealize.ShloMosaic.ValueIdx

/-- Lane 16 k + i of a packed row: feature i of the row's k-th edge. -/
abbrev lane (k : Fin 8) (i : Fin 16) : Fin 128 := ⟨16 * k.val + i.val, by omega⟩

/-- The indicator the body builds for graph g from an id word: compare with g, widen the bit, convert to a float. -/
def onehot (w : BitVec 32) (g : Fin 128) : EReal :=
  ((((IntOp.cmpi .eq w (BitVec.ofNat 32 g.val)).setWidth 32).toInt : ℝ) : EReal)

theorem widened_one : ((1#1 : BitVec 1).setWidth 32).toInt = 1 := by decide
theorem widened_zero : ((0#1 : BitVec 1).setWidth 32).toInt = 0 := by decide

/-- The indicator is 1 at the id's own graph … -/
theorem onehot_eq (w : BitVec 32) (g : Fin 128) (h : w = BitVec.ofNat 32 g.val) : onehot w g = 1 := by
  unfold onehot
  rw [StableHlo.Predicate.cmpi_eq_iff.mpr h, widened_one]
  simp

/-- … and 0 at every other one. -/
theorem onehot_ne (w : BitVec 32) (g : Fin 128) (h : w ≠ BitVec.ofNat 32 g.val) : onehot w g = 0 := by
  unfold onehot
  have : IntOp.cmpi .eq w (BitVec.ofNat 32 g.val) = 0#1 :=
    eq_zero_of_ne_one (fun h1 => h (StableHlo.Predicate.cmpi_eq_iff.mp h1))
  rw [this, widened_zero]
  simp

/-- The indicator row of a clipped nonnegative id picks, from any table, the row the id names: for an id b that is
    nonnegative as a signed word, the clip to [0, 127] is the word of min b 127, which is one of the 128 graphs. -/
theorem sum_onehot_clip (b : BitVec 32) (hb : b.toNat < 2 ^ 31) (t : Fin 128 → EReal) :
    ∑ g : Fin 128, onehot (IntOp.minsi 127#32 (IntOp.maxsi 0#32 b)) g * t g = t (rowOf b) := by
  have hc := clip_toNat b hb
  have hr := rowOf_val b hb
  refine sum_onehot (rowOf b) _ t (onehot_eq _ _ ?_) (fun g hg => onehot_ne _ _ ?_)
  · apply BitVec.eq_of_toNat_eq
    rw [hc, hr, BitVec.toNat_ofNat]
    have : min b.toNat 127 < 2 ^ 32 := by omega
    omega
  · intro h
    apply hg
    apply Fin.ext
    have h2 := congrArg BitVec.toNat h
    rw [hc, BitVec.toNat_ofNat] at h2
    have := g.isLt
    rw [hr]
    omega

/-- Feature j of sub-row k of packed row r of the output block. -/
def blockFn (s d a : (⟨2, ![2000, 128]⟩ : Shape).Idx → EReal) (b : (⟨2, ![2000, 8]⟩ : Shape).Idx → BitVec 32)
    (wa wb : (⟨2, ![16, 64]⟩ : Shape).Idx → EReal) (tb : (⟨2, ![128, 64]⟩ : Shape).Idx → EReal)
    (w2 : (⟨2, ![64, 16]⟩ : Shape).Idx → EReal) (b2 : (⟨1, ![16]⟩ : Shape).Idx → EReal)
    (r : Fin 2000) (k : Fin 8) (j : Fin 16) : EReal :=
  edgeOut (fun i => d (ix2 r (lane k i)) - s (ix2 r (lane k i))) (fun i => a (ix2 r (lane k i)))
    (fun i h => wa (ix2 i h)) (fun i h => wb (ix2 i h))
    (fun h => ∑ g : Fin 128, onehot (b (ix2 r k)) g * tb (ix2 g h))
    (fun h j => w2 (ix2 h j)) (fun j => b2 (ix1 j)) j

/-- The output block [2000, 128] as one function of its index: lane l is feature l mod 16 of sub-row l / 16. -/
def blockArr (s d a : (⟨2, ![2000, 128]⟩ : Shape).Idx → EReal) (b : (⟨2, ![2000, 8]⟩ : Shape).Idx → BitVec 32)
    (wa wb : (⟨2, ![16, 64]⟩ : Shape).Idx → EReal) (tb : (⟨2, ![128, 64]⟩ : Shape).Idx → EReal)
    (w2 : (⟨2, ![64, 16]⟩ : Shape).Idx → EReal) (b2 : (⟨1, ![16]⟩ : Shape).Idx → EReal) :
    (⟨2, ![2000, 128]⟩ : Shape).Idx → EReal :=
  fun y => blockFn s d a b wa wb tb w2 b2 ⟨(y 0).val, idx2_lt0 y⟩
    ⟨(y 1).val / 16, by have := idx2_lt1 y; omega⟩ ⟨(y 1).val % 16, Nat.mod_lt _ (by decide)⟩

end Cert.EdgeModel

end
-- ==== Proof.BodyProducts.lean ====
/-
  The body's three matrix products, each read at one entry.

  Every product in the body goes into a zero accumulator and contracts one axis: entry (p, c) is the sum over the
  contracted index k of left[p, k] * right[k, c]. The three products differ only in their extents: a 16-lane slice
  against a 16 x 64 weight, the 128-wide indicator row against the 128 x 64 table, and the 64 hidden units against
  the 64 x 16 weight.
-/
import proofs.«403488_j5909875000172_3_alg».proof.Proof.Gen.KernelIdeal
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A product into a zero accumulator whose dimension numbers contract ONE axis of extent K, at an output index j:
    the sum over k < K of the two operands at the indices the dimension numbers give for (j, k). -/
theorem matmul_zero_sum {sl sr so : Shape} {φ₁ φ₂ : FTy} (D : DotDims sl sr so) (K : Nat) (hr : D.contr.rank = 1)
    (hs : D.contr.size ⟨0, by omega⟩ = K) (l : FVec Ideal sl φ₁) (r : FVec Ideal sr φ₂) (j : so.Idx)
    (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    matmul D none l r (constant so .f32 0x00000000#32) j = ∑ k : Fin K, l (li k) * r (ri k) := by
  refine (Ideal.matmul_constant_zero_apply D none l r j).trans ?_
  rw [← Equiv.sum_comp (contrEquiv1 D K hr hs).symm]
  exact Finset.sum_congr rfl fun k _ => by rw [hl k, hri k]

/-! ### A 16-lane slice [2000, 16] against a weight [16, 64] -/

theorem slice_dot_lhs_0 (i : S2000x64.Idx) (q : dot_S2000x16_S16x64_S2000x64_1_0_0_1_n_n.contr.Idx) :
    (dot_S2000x16_S16x64_S2000x64_1_0_0_1_n_n.lhsIdx i q 0).val = (i 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem slice_dot_lhs_1 (i : S2000x64.Idx) (q : dot_S2000x16_S16x64_S2000x64_1_0_0_1_n_n.contr.Idx) :
    (dot_S2000x16_S16x64_S2000x64_1_0_0_1_n_n.lhsIdx i q 1).val = (q ⟨0, by decide⟩).val :=
  dot_S2000x16_S16x64_S2000x64_1_0_0_1_n_n.lhsIdx_val_of_single rfl i q
theorem slice_dot_rhs_0 (i : S2000x64.Idx) (q : dot_S2000x16_S16x64_S2000x64_1_0_0_1_n_n.contr.Idx) :
    (dot_S2000x16_S16x64_S2000x64_1_0_0_1_n_n.rhsIdx i q 0).val = (q ⟨0, by decide⟩).val :=
  dot_S2000x16_S16x64_S2000x64_1_0_0_1_n_n.rhsIdx_val_of_single rfl i q
theorem slice_dot_rhs_1 (i : S2000x64.Idx) (q : dot_S2000x16_S16x64_S2000x64_1_0_0_1_n_n.contr.Idx) :
    (dot_S2000x16_S16x64_S2000x64_1_0_0_1_n_n.rhsIdx i q 1).val = (i 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- Entry (p, c) of the product into a zero accumulator is the 16-term sum of row p of the left factor against
    column c of the right one. -/
theorem slice_dot_apply {φ₁ φ₂ : FTy} (l : FVec Ideal S2000x16 φ₁) (r : FVec Ideal S16x64 φ₂) (p : Fin 2000) (c : Fin 64) :
    matmul dot_S2000x16_S16x64_S2000x64_1_0_0_1_n_n none l r (constant S2000x64 .f32 0x00000000#32) (ix2 p c)
      = ∑ k : Fin 16, l (ix2 p k) * r (ix2 k c) := by
  refine matmul_zero_sum dot_S2000x16_S16x64_S2000x64_1_0_0_1_n_n 16 rfl rfl l r (ix2 p c) (fun k => ix2 p k) (fun k => ix2 k c) (fun k => ?_) (fun k => ?_)
  · have hk := contrEquiv1_symm_val dot_S2000x16_S16x64_S2000x64_1_0_0_1_n_n 16 rfl rfl k
    exact funext fun a => Fin.ext (by
      match a with
      | ⟨0, _⟩ => exact slice_dot_lhs_0 _ _
      | ⟨1, _⟩ => exact (slice_dot_lhs_1 _ _).trans hk)
  · have hk := contrEquiv1_symm_val dot_S2000x16_S16x64_S2000x64_1_0_0_1_n_n 16 rfl rfl k
    exact funext fun a => Fin.ext (by
      match a with
      | ⟨0, _⟩ => exact (slice_dot_rhs_0 _ _).trans hk
      | ⟨1, _⟩ => exact slice_dot_rhs_1 _ _)

/-! ### The indicator rows [2000, 128] against the table [128, 64] -/

theorem onehot_dot_lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem onehot_dot_lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem onehot_dot_rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem onehot_dot_rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, c) of the product into a zero accumulator is the 128-term sum of row p of the left factor against
    column c of the right one. -/
theorem onehot_dot_apply {φ₁ φ₂ : FTy} (l : FVec Ideal S2000x128 φ₁) (r : FVec Ideal S128x64 φ₂) (p : Fin 2000) (c : Fin 64) :
    matmul dot_S2000x128_S128x64_S2000x64_1_0_0_1_n_n none l r (constant S2000x64 .f32 0x00000000#32) (ix2 p c)
      = ∑ k : Fin 128, l (ix2 p k) * r (ix2 k c) := by
  refine matmul_zero_sum dot_S2000x128_S128x64_S2000x64_1_0_0_1_n_n 128 rfl rfl l r (ix2 p c) (fun k => ix2 p k) (fun k => ix2 k c) (fun k => ?_) (fun k => ?_)
  · have hk := contrEquiv1_symm_val dot_S2000x128_S128x64_S2000x64_1_0_0_1_n_n 128 rfl rfl k
    exact funext fun a => Fin.ext (by
      match a with
      | ⟨0, _⟩ => exact onehot_dot_lhs_0 _ _
      | ⟨1, _⟩ => exact (onehot_dot_lhs_1 _ _).trans hk)
  · have hk := contrEquiv1_symm_val dot_S2000x128_S128x64_S2000x64_1_0_0_1_n_n 128 rfl rfl k
    exact funext fun a => Fin.ext (by
      match a with
      | ⟨0, _⟩ => exact (onehot_dot_rhs_0 _ _).trans hk
      | ⟨1, _⟩ => exact onehot_dot_rhs_1 _ _)

/-! ### The hidden units [2000, 64] against the second weight [64, 16] -/

theorem hidden_dot_lhs_0 (i : S2000x16.Idx) (q : dot_S2000x64_S64x16_S2000x16_1_0_0_1_n_n.contr.Idx) :
    (dot_S2000x64_S64x16_S2000x16_1_0_0_1_n_n.lhsIdx i q 0).val = (i 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
theorem hidden_dot_lhs_1 (i : S2000x16.Idx) (q : dot_S2000x64_S64x16_S2000x16_1_0_0_1_n_n.contr.Idx) :
    (dot_S2000x64_S64x16_S2000x16_1_0_0_1_n_n.lhsIdx i q 1).val = (q ⟨0, by decide⟩).val :=
  dot_S2000x64_S64x16_S2000x16_1_0_0_1_n_n.lhsIdx_val_of_single rfl i q
theorem hidden_dot_rhs_0 (i : S2000x16.Idx) (q : dot_S2000x64_S64x16_S2000x16_1_0_0_1_n_n.contr.Idx) :
    (dot_S2000x64_S64x16_S2000x16_1_0_0_1_n_n.rhsIdx i q 0).val = (q ⟨0, by decide⟩).val :=
  dot_S2000x64_S64x16_S2000x16_1_0_0_1_n_n.rhsIdx_val_of_single rfl i q
theorem hidden_dot_rhs_1 (i : S2000x16.Idx) (q : dot_S2000x64_S64x16_S2000x16_1_0_0_1_n_n.contr.Idx) :
    (dot_S2000x64_S64x16_S2000x16_1_0_0_1_n_n.rhsIdx i q 1).val = (i 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- Entry (p, c) of the product into a zero accumulator is the 64-term sum of row p of the left factor against
    column c of the right one. -/
theorem hidden_dot_apply {φ₁ φ₂ : FTy} (l : FVec Ideal S2000x64 φ₁) (r : FVec Ideal S64x16 φ₂) (p : Fin 2000) (c : Fin 16) :
    matmul dot_S2000x64_S64x16_S2000x16_1_0_0_1_n_n none l r (constant S2000x16 .f32 0x00000000#32) (ix2 p c)
      = ∑ k : Fin 64, l (ix2 p k) * r (ix2 k c) := by
  refine matmul_zero_sum dot_S2000x64_S64x16_S2000x16_1_0_0_1_n_n 64 rfl rfl l r (ix2 p c) (fun k => ix2 p k) (fun k => ix2 k c) (fun k => ?_) (fun k => ?_)
  · have hk := contrEquiv1_symm_val dot_S2000x64_S64x16_S2000x16_1_0_0_1_n_n 64 rfl rfl k
    exact funext fun a => Fin.ext (by
      match a with
      | ⟨0, _⟩ => exact hidden_dot_lhs_0 _ _
      | ⟨1, _⟩ => exact (hidden_dot_lhs_1 _ _).trans hk)
  · have hk := contrEquiv1_symm_val dot_S2000x64_S64x16_S2000x16_1_0_0_1_n_n 64 rfl rfl k
    exact funext fun a => Fin.ext (by
      match a with
      | ⟨0, _⟩ => exact (hidden_dot_rhs_0 _ _).trans hk
      | ⟨1, _⟩ => exact hidden_dot_rhs_1 _ _)

end Cert.KernelIdeal.Body

end
-- ==== Proof.BodyRow.lean ====
/-
  One sub-row of the body, read at one entry.

  For sub-row k (k < 8) of a block the body takes lanes 16 k .. 16 k + 15 of the difference and attribute blocks,
  column k of the id block, and computes
      hid[p, h] = max ((sum_i diff[p, 16 k + i] * W1a[i, h] + sum_i attr[p, 16 k + i] * W1b[i, h])
                        + sum_g [id[p, k] = g] * T[g, h]) 0
      out[p, j] = sum_h hid[p, h] * W2[h, j] + b2[j].
  Changes of float format are the identity on the extended reals, so the four casts disappear.
-/
import proofs.«403488_j5909875000172_3_alg».proof.Proof.Gen.KernelIdeal
import proofs.«403488_j5909875000172_3_alg».proof.Proof.BlockSpec
import proofs.«403488_j5909875000172_3_alg».proof.Proof.BodyProducts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeModel

/-- A column [p, 1] broadcast along the lanes reads, at (p, g), the column's entry for row p. -/
theorem broadcastTo_col_apply {a b : ℕ} (hb : b ≠ 1) (v : (⟨2, ![a, 1]⟩ : Shape).Idx → BitVec 32)
    (h : (⟨2, ![a, 1]⟩ : Shape).Broadcasts ⟨2, ![a, b]⟩) (p : Fin a) (g : Fin b) :
    broadcastTo ⟨2, ![a, b]⟩ v h (ix2 p g) = v (ix2 p (0 : Fin 1)) := by
  refine broadcastTo_apply v h (ix2 p g) (ix2 p (0 : Fin 1)) fun ax => ?_
  match ax with
  | ⟨0, _⟩ =>
    show p.val = if a = 1 then 0 else p.val
    split
    · have := p.isLt; omega
    · rfl
  | ⟨1, _⟩ => rfl

/-- The lane index along axis 1 of a [2000, 128] vector, at (p, g), is the word of g. -/
theorem lane_iota_apply (p : Fin 2000) (g : Fin 128) :
    iota .tc S2000x128 32 [1] iota_S2000x128_d1_w32 (ix2 p g) = BitVec.ofNat 32 g.val := by
  show BitVec.ofNat 32 (0 * 128 + g.val) = _
  rw [Nat.zero_mul, Nat.zero_add]

/-- The indicator row the body builds from column k of the id block, at (p, g). -/
theorem indicator_apply (k : Fin 8) (hc : S2000x8.Slices ![0, k.val] S2000x1) (ids : IVec S2000x8 32)
    (p : Fin 2000) (g : Fin 128) :
    (truncf .bf16 (sitofp .f32 (extui 32 (cmpi .eq
        (broadcastTo S2000x128 (extractStridedSlice S2000x1 ![0, k.val] ids hc) broadcasts_S2000x1_S2000x128)
        (iota .tc S2000x128 32 [1] iota_S2000x128_d1_w32)) natLt_1_32) : FVec Ideal S2000x128 .f32) bitsLt_bf16_f32
      : FVec Ideal S2000x128 .bf16) (ix2 p g) = onehot (ids (ix2 p k)) g := by
  have e : cmpi .eq
        (broadcastTo S2000x128 (extractStridedSlice S2000x1 ![0, k.val] ids hc) broadcasts_S2000x1_S2000x128)
        (iota .tc S2000x128 32 [1] iota_S2000x128_d1_w32) (ix2 p g)
      = IntOp.cmpi .eq (ids (ix2 p k)) (BitVec.ofNat 32 g.val) := by
    show IntOp.cmpi .eq (broadcastTo S2000x128 (extractStridedSlice S2000x1 ![0, k.val] ids hc) broadcasts_S2000x1_S2000x128 (ix2 p g))
      (iota .tc S2000x128 32 [1] iota_S2000x128_d1_w32 (ix2 p g)) = _
    rw [lane_iota_apply, broadcastTo_col_apply (by decide) _ broadcasts_S2000x1_S2000x128 p g,
      slice2_axis1_apply k.val ids hc p (0 : Fin 1) k (by simp)]
  rw [truncf_apply, sitofp_apply, extui_apply, e]
  rfl

/-- Hidden unit h of row p of sub-row k. -/
theorem hidden_apply (off : ℕ) (k : Fin 8) (hoff : off = 16 * k.val)
    (hs : S2000x128.Slices ![0, off] S2000x16) (hc : S2000x8.Slices ![0, k.val] S2000x1)
    (diff attr : FVec Ideal S2000x128 .bf16) (ids : IVec S2000x8 32) (wa wb : FVec Ideal S16x64 .bf16)
    (tb : FVec Ideal S128x64 .bf16) (p : Fin 2000) (h : Fin 64) :
    (truncf .bf16 (maximumf (addf (addf
        (matmul dot_S2000x16_S16x64_S2000x64_1_0_0_1_n_n none (extractStridedSlice S2000x16 ![0, off] diff hs) wa
          (constant S2000x64 .f32 0x00000000#32))
        (matmul dot_S2000x16_S16x64_S2000x64_1_0_0_1_n_n none (extractStridedSlice S2000x16 ![0, off] attr hs) wb
          (constant S2000x64 .f32 0x00000000#32)))
        (matmul dot_S2000x128_S128x64_S2000x64_1_0_0_1_n_n none
          (truncf .bf16 (sitofp .f32 (extui 32 (cmpi .eq
            (broadcastTo S2000x128 (extractStridedSlice S2000x1 ![0, k.val] ids hc) broadcasts_S2000x1_S2000x128)
            (iota .tc S2000x128 32 [1] iota_S2000x128_d1_w32)) natLt_1_32) : FVec Ideal S2000x128 .f32) bitsLt_bf16_f32)
          tb (constant S2000x64 .f32 0x00000000#32)))
      (broadcast S2000x64 (Scalar.ofBits .f32 0x00000000#32))) bitsLt_bf16_f32 : FVec Ideal S2000x64 .bf16) (ix2 p h)
    = hidden (fun i => diff (ix2 p (lane k i))) (fun i => attr (ix2 p (lane k i)))
        (fun i h => wa (ix2 i h)) (fun i h => wb (ix2 i h))
        (fun h => ∑ g : Fin 128, onehot (ids (ix2 p k)) g * tb (ix2 g h)) h := by
  have ed : ∀ i : Fin 16, extractStridedSlice S2000x16 ![0, off] diff hs (ix2 p i) = diff (ix2 p (lane k i)) :=
    fun i => slice2_axis1_apply off diff hs p i (lane k i) (by show 16 * k.val + i.val = off + i.val; omega)
  have ea : ∀ i : Fin 16, extractStridedSlice S2000x16 ![0, off] attr hs (ix2 p i) = attr (ix2 p (lane k i)) :=
    fun i => slice2_axis1_apply off attr hs p i (lane k i) (by show 16 * k.val + i.val = off + i.val; omega)
  rw [truncf_apply, maximumf_apply, addf_apply, addf_apply, slice_dot_apply, slice_dot_apply, onehot_dot_apply,
    broadcast_apply]
  simp only [ed, ea, indicator_apply k hc ids p]
  show max _ (Ideal.ofBits .f32 0x00000000#32) = _
  rw [Ideal.ofBits_zero_f32]
  rfl

/-- Output feature j of row p of a sub-row, from its hidden units. -/
theorem out_apply (hid : FVec Ideal S2000x64 .bf16) (w2 : FVec Ideal S64x16 .bf16) (b2 : Vec Ideal S16 .f32)
    (p : Fin 2000) (j : Fin 16) :
    addf (matmul dot_S2000x64_S64x16_S2000x16_1_0_0_1_n_n none hid w2 (constant S2000x16 .f32 0x00000000#32))
        (broadcastTo S2000x16 (shapeCast S1x16 b2 shapeCasts_S16_S1x16) broadcasts_S1x16_S2000x16) (ix2 p j)
      = (∑ h : Fin 64, hid (ix2 p h) * w2 (ix2 h j)) + b2 (ix1 j) := by
  rw [addf_apply, hidden_dot_apply, broadcastTo_1b_ab_apply _ broadcasts_S1x16_S2000x16 p j,
    shapeCast_a_1a_apply b2 shapeCasts_S16_S1x16 (0 : Fin 1) j]

end Cert.KernelIdeal.Body

end
-- ==== Proof.BlockValue.lean ====
/-
  The body's output block is one function of the nine input blocks.

  The body stores eight [2000, 16] pieces, piece k into lanes 16 k .. 16 k + 15 of the output buffer; piece k is the
  edge model on sub-row k of the input blocks. So the buffer after the body is, at (p, l), feature l mod 16 of sub-row
  l / 16 of packed row p: the eight pieces are the eight column bands of ONE function of the buffer's index, and they
  tile the buffer.
-/
import proofs.«403488_j5909875000172_3_alg».proof.Proof.Gen.KernelIdeal.Frame
import proofs.«403488_j5909875000172_3_alg».proof.Proof.BodyRow
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.EdgeModel

theorem zero_off2 : (![0, 0] : Fin 2 → ℕ) = fun _ => 0 := by
  funext a; match a with | ⟨0, _⟩ => rfl | ⟨1, _⟩ => rfl
theorem zero_off1 : (![0] : Fin 1 → ℕ) = fun _ => 0 := by
  funext a; match a with | ⟨0, _⟩ => rfl

/-! ## The input blocks as the body sees them -/

/-- The difference block: dest - src, entry by entry (the narrowing cast is the identity). -/
theorem diff_pay (x0 x1 : Vec Ideal S2000x128 .f32) :
    k0_pay3 (F := Ideal) (View.ld x1 r0_0) (View.ld x0 r0_0) = fun y => x1 y - x0 y := by
  unfold k0_pay3
  rw [View.ld_unit_zero (S := S2000x128) zero_off2, View.ld_unit_zero (S := S2000x128) zero_off2]
  funext y
  show (shapeCast S2000x128 x1 shapeCasts_S2000x128_S2000x128) y - (shapeCast S2000x128 x0 shapeCasts_S2000x128_S2000x128) y = _
  rw [shapeCast_self, shapeCast_self]

/-- The attribute block, unchanged. -/
theorem attr_pay (x2 : Vec Ideal S2000x128 .f32) : k0_pay4 (F := Ideal) (View.ld x2 r0_0) = x2 := by
  unfold k0_pay4
  rw [View.ld_unit_zero (S := S2000x128) zero_off2]
  funext y
  show (shapeCast S2000x128 x2 shapeCasts_S2000x128_S2000x128) y = _
  rw [shapeCast_self]

/-- The id block, unchanged. -/
theorem ids_pay (x3 : Vec Ideal S2000x8 .i32) : k0_pay5 (F := Ideal) (View.ld x3 r0_1) = x3 := by
  unfold k0_pay5
  rw [View.ld_unit_zero (S := S2000x8) zero_off2]
  exact shapeCast_self _ _

/-- The three weights and the table, unchanged. -/
theorem wa_pay (x4 : Vec Ideal S16x64 .bf16) : k0_pay6 (F := Ideal) (View.ld x4 r0_2) = x4 := by
  unfold k0_pay6
  rw [View.ld_unit_zero (S := S16x64) zero_off2]
  exact shapeCast_self _ _
theorem wb_pay (x5 : Vec Ideal S16x64 .bf16) : k0_pay7 (F := Ideal) (View.ld x5 r0_2) = x5 := by
  unfold k0_pay7
  rw [View.ld_unit_zero (S := S16x64) zero_off2]
  exact shapeCast_self _ _
theorem tb_pay (x6 : Vec Ideal S128x64 .bf16) : k0_pay8 (F := Ideal) (View.ld x6 r0_3) = x6 := by
  unfold k0_pay8
  rw [View.ld_unit_zero (S := S128x64) zero_off2]
  exact shapeCast_self _ _
theorem w2_pay (x7 : Vec Ideal S64x16 .bf16) : k0_pay9 (F := Ideal) (View.ld x7 r0_4) = x7 := by
  unfold k0_pay9
  rw [View.ld_unit_zero (S := S64x16) zero_off2]
  exact shapeCast_self _ _

/-! ## One piece -/

/-- The hidden units of sub-row k as the body writes them, from the (cast) difference, attribute and id blocks and the
    three weights: the term every one of the eight pieces contains, with its slice offsets as parameters. -/
abbrev subrowHidden (off : ℕ) (k : Fin 8) (hs : S2000x128.Slices ![0, off] S2000x16) (hc : S2000x8.Slices ![0, k.val] S2000x1)
    (diff attr : FVec Ideal S2000x128 .bf16) (ids : IVec S2000x8 32) (wa wb : FVec Ideal S16x64 .bf16)
    (tb : FVec Ideal S128x64 .bf16) : FVec Ideal S2000x64 .bf16 :=
  truncf .bf16 (maximumf (addf (addf
      (matmul dot_S2000x16_S16x64_S2000x64_1_0_0_1_n_n none (extractStridedSlice S2000x16 ![0, off] diff hs) wa
        (constant S2000x64 .f32 0x00000000#32))
      (matmul dot_S2000x16_S16x64_S2000x64_1_0_0_1_n_n none (extractStridedSlice S2000x16 ![0, off] attr hs) wb
        (constant S2000x64 .f32 0x00000000#32)))
      (matmul dot_S2000x128_S128x64_S2000x64_1_0_0_1_n_n none
        (truncf .bf16 (sitofp .f32 (extui 32 (cmpi .eq
          (broadcastTo S2000x128 (extractStridedSlice S2000x1 ![0, k.val] ids hc) broadcasts_S2000x1_S2000x128)
          (iota .tc S2000x128 32 [1] iota_S2000x128_d1_w32)) natLt_1_32) : FVec Ideal S2000x128 .f32) bitsLt_bf16_f32)
        tb (constant S2000x64 .f32 0x00000000#32)))
    (broadcast S2000x64 (Scalar.ofBits .f32 0x00000000#32))) bitsLt_bf16_f32

/-- The block function at an index given by its coordinates: packed row p, sub-row k, feature j. -/
theorem blockArr_of_coords (s d a : (⟨2, ![2000, 128]⟩ : Shape).Idx → EReal) (b : (⟨2, ![2000, 8]⟩ : Shape).Idx → BitVec 32)
    (wa wb : (⟨2, ![16, 64]⟩ : Shape).Idx → EReal) (tb : (⟨2, ![128, 64]⟩ : Shape).Idx → EReal)
    (w2 : (⟨2, ![64, 16]⟩ : Shape).Idx → EReal) (b2 : (⟨1, ![16]⟩ : Shape).Idx → EReal)
    (y : (⟨2, ![2000, 128]⟩ : Shape).Idx) (p : Fin 2000) (k : Fin 8) (j : Fin 16)
    (h0 : (y 0).val = p.val) (h1 : (y 1).val = 16 * k.val + j.val) :
    blockArr s d a b wa wb tb w2 b2 y = blockFn s d a b wa wb tb w2 b2 p k j := by
  unfold blockArr
  have e0 : (⟨(y 0).val, idx2_lt0 y⟩ : Fin 2000) = p := Fin.ext h0
  have e1 : (⟨(y 1).val / 16, by have := idx2_lt1 y; omega⟩ : Fin 8) = k := Fin.ext (by show (y 1).val / 16 = k.val; omega)
  have e2 : (⟨(y 1).val % 16, Nat.mod_lt _ (by decide)⟩ : Fin 16) = j := Fin.ext (by show (y 1).val % 16 = j.val; omega)
  rw [e0, e1, e2]

/-- Piece k of the body's stores, at its own index x, is the block function at the buffer index x lands on. -/
theorem piece_eq (off : ℕ) (k : Fin 8) (hoff : off = 16 * k.val)
    (hs : S2000x128.Slices ![0, off] S2000x16) (hc : S2000x8.Slices ![0, k.val] S2000x1)
    (inb : ∀ a, (![0, off] : Fin 2 → ℕ) a + S2000x16.size a ≤ S2000x128.size a)
    (x0 x1 x2 : Vec Ideal S2000x128 .f32) (x3 : Vec Ideal S2000x8 .i32) (x4 x5 : Vec Ideal S16x64 .bf16)
    (x6 : Vec Ideal S128x64 .bf16) (x7 : Vec Ideal S64x16 .bf16) (x8 : Vec Ideal S16 .f32)
    (pay : FVec Ideal S2000x16 .f32)
    (hpay : pay = addf (matmul dot_S2000x64_S64x16_S2000x16_1_0_0_1_n_n none
        (subrowHidden off k hs hc (k0_pay3 (View.ld x1 r0_0) (View.ld x0 r0_0)) (k0_pay4 (View.ld x2 r0_0)) (k0_pay5 (View.ld x3 r0_1))
          (k0_pay6 (View.ld x4 r0_2)) (k0_pay7 (View.ld x5 r0_2)) (k0_pay8 (View.ld x6 r0_3)))
        (k0_pay9 (View.ld x7 r0_4)) (constant S2000x16 .f32 0x00000000#32))
      (broadcastTo S2000x16 (shapeCast S1x16 (View.ld x8 r0_5) shapeCasts_S16_S1x16) broadcasts_S1x16_S2000x16))
    (x : S2000x16.Idx) :
    pay x = blockArr x0 x1 x2 x3 x4 x5 x6 x7 x8 ((Rect.unit (s := S2000x128) ![0, off] S2000x16.size inb).emb x) := by
  subst hpay
  obtain ⟨p, j, rfl⟩ : ∃ (p : Fin 2000) (j : Fin 16), x = ix2 p j := ⟨x 0, x 1, eq_ix2 x⟩
  rw [out_apply]
  simp only [hidden_apply off k hoff hs hc]
  rw [diff_pay, attr_pay, ids_pay, wa_pay, wb_pay, tb_pay, w2_pay, View.ld_unit_zero (S := S16) zero_off1]
  rw [blockArr_of_coords x0 x1 x2 x3 x4 x5 x6 x7 x8 _ p k j (by show 0 + 1 * p.val = p.val; omega)
    (by show off + 1 * j.val = 16 * k.val + j.val; omega)]
  rfl

/-! ## The whole buffer -/

/-- The output buffer after the body, from the nine input blocks. -/
theorem out0_9_eq (x0 x1 x2 : Vec Ideal S2000x128 .f32) (x3 : Vec Ideal S2000x8 .i32) (x4 x5 : Vec Ideal S16x64 .bf16)
    (x6 : Vec Ideal S128x64 .bf16) (x7 : Vec Ideal S64x16 .bf16) (x8 : Vec Ideal S16 .f32) :
    out0_9 (F := Ideal) x0 x1 x2 x3 x4 x5 x6 x7 x8 = blockArr x0 x1 x2 x3 x4 x5 x6 x7 x8 := by
  funext y
  unfold out0_9
  refine View.canon_apply_of_pieces (Val := Elt Ideal) (S := S2000x128) (e := .f32)
    (show S2000x128.Idx → Elt Ideal .f32 from blockArr x0 x1 x2 x3 x4 x5 x6 x7 x8) _ ?_ y (cover0_9 _ _ _ _ _ _ _ _ y)
  intro pc hpc
  simp only [List.mem_cons, List.mem_nil_iff, or_false] at hpc
  rcases hpc with rfl | rfl | rfl | rfl | rfl | rfl | rfl | rfl
  · exact fun x => piece_eq 112 7 rfl slices_S2000x128_o0_112_S2000x16 slices_S2000x8_o0_7_S2000x1 inb_S2000x128_S2000x16_0_112
      x0 x1 x2 x3 x4 x5 x6 x7 x8 _ rfl x
  · exact fun x => piece_eq 96 6 rfl slices_S2000x128_o0_96_S2000x16 slices_S2000x8_o0_6_S2000x1 inb_S2000x128_S2000x16_0_96
      x0 x1 x2 x3 x4 x5 x6 x7 x8 _ rfl x
  · exact fun x => piece_eq 80 5 rfl slices_S2000x128_o0_80_S2000x16 slices_S2000x8_o0_5_S2000x1 inb_S2000x128_S2000x16_0_80
      x0 x1 x2 x3 x4 x5 x6 x7 x8 _ rfl x
  · exact fun x => piece_eq 64 4 rfl slices_S2000x128_o0_64_S2000x16 slices_S2000x8_o0_4_S2000x1 inb_S2000x128_S2000x16_0_64
      x0 x1 x2 x3 x4 x5 x6 x7 x8 _ rfl x
  · exact fun x => piece_eq 48 3 rfl slices_S2000x128_o0_48_S2000x16 slices_S2000x8_o0_3_S2000x1 inb_S2000x128_S2000x16_0_48
      x0 x1 x2 x3 x4 x5 x6 x7 x8 _ rfl x
  · exact fun x => piece_eq 32 2 rfl slices_S2000x128_o0_32_S2000x16 slices_S2000x8_o0_2_S2000x1 inb_S2000x128_S2000x16_0_32
      x0 x1 x2 x3 x4 x5 x6 x7 x8 _ rfl x
  · exact fun x => piece_eq 16 1 rfl slices_S2000x128_o0_16_S2000x16 slices_S2000x8_o0_1_S2000x1 inb_S2000x128_S2000x16_0_16
      x0 x1 x2 x3 x4 x5 x6 x7 x8 _ rfl x
  · exact fun x => piece_eq 0 0 rfl slices_S2000x128_o0_0_S2000x16 slices_S2000x8_o0_0_S2000x1 inb_S2000x128_S2000x16_0_0
      x0 x1 x2 x3 x4 x5 x6 x7 x8 _ rfl x

end Cert.KernelIdeal.Body

end
-- ==== Proof.PackedModel.lean ====
/-
  From one block to the whole array, and from the packed layout back to edges.

  The kernel works on the arrays reshaped [1600000, 16] -> [200000, 128] (eight consecutive edges per packed row) and on
  the ids reshaped [1600000] -> [200000, 8]; grid point t takes packed rows 2000 t .. 2000 t + 1999. Entry (p, l) of
  point t's output block is therefore feature l mod 16 of edge 8 (2000 t + p) + l / 16; the id it reads has been
  clipped to [0, 127], and for a nonnegative id the clipped id's indicator row picks the table row the edge model names.
-/
import Idealize.ShloMosaic.PureOps.Ideal
import Idealize.ShloMosaic.Lib.ValueIdx
import Idealize.ShloMosaic.Lib.Pipeline.Value
import proofs.«403488_j5909875000172_3_alg».proof.Proof.BlockSpec

noncomputable section

open scoped BigOperators

namespace Cert.EdgeModel

open Idealize.ShloMosaic Idealize.ShloMosaic.ValueIdx

/-- The result in the packed layout: packed row Y0, lane Y1 is feature Y1 mod 16 of edge 8 Y0 + Y1 / 16. -/
def packed (g : (⟨2, ![1600000, 16]⟩ : Shape).Idx → EReal) : (⟨2, ![200000, 128]⟩ : Shape).Idx → EReal :=
  fun Y => g (ix2 (⟨8 * (Y 0).val + (Y 1).val / 16, by have := idx2_lt0 Y; have := idx2_lt1 Y; omega⟩ : Fin 1600000)
    (⟨(Y 1).val % 16, Nat.mod_lt _ (by decide)⟩ : Fin 16))

/-- Unpacking: the packed result reshaped to [1600000, 16] is the result. -/
theorem unpack (g : (⟨2, ![1600000, 16]⟩ : Shape).Idx → EReal)
    (h : (⟨2, ![200000, 128]⟩ : Shape).ShapeCasts ⟨2, ![1600000, 16]⟩) :
    shapeCast ⟨2, ![1600000, 16]⟩ (packed g) h = g := by
  funext y
  obtain ⟨e, j, rfl⟩ : ∃ (e : Fin 1600000) (j : Fin 16), y = ix2 e j := ⟨y 0, y 1, eq_ix2 y⟩
  have he := e.isLt
  have hj := j.isLt
  rw [shapeCast_apply (packed g) h (ix2 e j)
    (ix2 (⟨e.val / 8, by omega⟩ : Fin 200000) (⟨16 * (e.val % 8) + j.val, by omega⟩ : Fin 128))
    (by rw [Shape.rowMajor_val_two, Shape.rowMajor_val_two]
        show e.val / 8 * 128 + (16 * (e.val % 8) + j.val) = e.val * 16 + j.val
        omega)]
  unfold packed
  congr 1
  funext a
  match a with
  | ⟨0, _⟩ => exact Fin.ext (by show 8 * (e.val / 8) + (16 * (e.val % 8) + j.val) / 16 = e.val; omega)
  | ⟨1, _⟩ => exact Fin.ext (by show (16 * (e.val % 8) + j.val) % 16 = j.val; omega)

/-- One block is the model: if the nine blocks of grid point t hold what the reshaped (and, for the ids, clipped)
    arguments hold at packed rows 2000 t .., the weights the three thirds of W1 with the table in place of the last,
    then entry (p, l) of the block function is the edge model at edge 8 (2000 t + p) + l / 16, feature l mod 16. -/
theorem block_is_model
    (s d a : (⟨2, ![2000, 128]⟩ : Shape).Idx → EReal) (b : (⟨2, ![2000, 8]⟩ : Shape).Idx → BitVec 32)
    (wa wb : (⟨2, ![16, 64]⟩ : Shape).Idx → EReal) (tb : (⟨2, ![128, 64]⟩ : Shape).Idx → EReal)
    (w2' : (⟨2, ![64, 16]⟩ : Shape).Idx → EReal) (b2' : (⟨1, ![16]⟩ : Shape).Idx → EReal)
    (src dest attr : (⟨2, ![1600000, 16]⟩ : Shape).Idx → EReal) (u : (⟨2, ![128, 16]⟩ : Shape).Idx → EReal)
    (batch : (⟨1, ![1600000]⟩ : Shape).Idx → BitVec 32) (w1 : (⟨2, ![48, 64]⟩ : Shape).Idx → EReal)
    (b1 : (⟨1, ![64]⟩ : Shape).Idx → EReal) (w2 : (⟨2, ![64, 16]⟩ : Shape).Idx → EReal)
    (b2 : (⟨1, ![16]⟩ : Shape).Idx → EReal) (t : ℕ)
    (hs : ∀ (p : Fin 2000) (l : Fin 128) (e : Fin 1600000) (i : Fin 16),
      e.val = 8 * (2000 * t + p.val) + l.val / 16 → i.val = l.val % 16 → s (ix2 p l) = src (ix2 e i))
    (hd : ∀ (p : Fin 2000) (l : Fin 128) (e : Fin 1600000) (i : Fin 16),
      e.val = 8 * (2000 * t + p.val) + l.val / 16 → i.val = l.val % 16 → d (ix2 p l) = dest (ix2 e i))
    (ha : ∀ (p : Fin 2000) (l : Fin 128) (e : Fin 1600000) (i : Fin 16),
      e.val = 8 * (2000 * t + p.val) + l.val / 16 → i.val = l.val % 16 → a (ix2 p l) = attr (ix2 e i))
    (hb : ∀ (p : Fin 2000) (k : Fin 8) (e : Fin 1600000), e.val = 8 * (2000 * t + p.val) + k.val →
      b (ix2 p k) = IntOp.minsi 127#32 (IntOp.maxsi 0#32 (batch (ix1 e))))
    (hwa : ∀ (i : Fin 16) (h : Fin 64) (q : Fin 48), q.val = i.val → wa (ix2 i h) = w1 (ix2 q h))
    (hwb : ∀ (i : Fin 16) (h : Fin 64) (q : Fin 48), q.val = 16 + i.val → wb (ix2 i h) = w1 (ix2 q h))
    (htb : ∀ (g : Fin 128) (h : Fin 64), tb (ix2 g h) = table u w1 b1 g h)
    (hw2 : ∀ (h : Fin 64) (j : Fin 16), w2' (ix2 h j) = w2 (ix2 h j))
    (hb2 : ∀ j : Fin 16, b2' (ix1 j) = b2 (ix1 j))
    (hnn : ∀ e : Fin 1600000, (batch (ix1 e)).toNat < 2 ^ 31)
    (p : Fin 2000) (l : Fin 128) (e : Fin 1600000) (j : Fin 16)
    (he : e.val = 8 * (2000 * t + p.val) + l.val / 16) (hj : j.val = l.val % 16) :
    blockArr s d a b wa wb tb w2' b2' (ix2 p l) = G src dest attr u batch w1 b1 w2 b2 (ix2 e j) := by
  have hl := l.isLt
  obtain ⟨k, hk⟩ : ∃ k : Fin 8, k.val = l.val / 16 := ⟨⟨l.val / 16, by omega⟩, rfl⟩
  have hjj : (⟨l.val % 16, Nat.mod_lt _ (by decide)⟩ : Fin 16) = j := Fin.ext hj.symm
  have hkk : (⟨l.val / 16, by omega⟩ : Fin 8) = k := Fin.ext hk.symm
  rw [G_ix2]
  show blockFn s d a b wa wb tb w2' b2' p ⟨l.val / 16, by omega⟩ ⟨l.val % 16, Nat.mod_lt _ (by decide)⟩ = _
  rw [hjj, hkk]
  unfold blockFn edgeFn
  have e1 : (fun i : Fin 16 => d (ix2 p (lane k i)) - s (ix2 p (lane k i))) = fun i => dest (ix2 e i) - src (ix2 e i) := by
    funext i
    have hi := i.isLt
    rw [hd p (lane k i) e i (by show e.val = 8 * (2000 * t + p.val) + (16 * k.val + i.val) / 16; omega)
          (by show i.val = (16 * k.val + i.val) % 16; omega),
      hs p (lane k i) e i (by show e.val = 8 * (2000 * t + p.val) + (16 * k.val + i.val) / 16; omega)
          (by show i.val = (16 * k.val + i.val) % 16; omega)]
  have e2 : (fun i : Fin 16 => a (ix2 p (lane k i))) = fun i => attr (ix2 e i) := by
    funext i
    have hi := i.isLt
    rw [ha p (lane k i) e i (by show e.val = 8 * (2000 * t + p.val) + (16 * k.val + i.val) / 16; omega)
          (by show i.val = (16 * k.val + i.val) % 16; omega)]
  have e3 : (fun (i : Fin 16) (h : Fin 64) => wa (ix2 i h)) = fun i h => w1 (ix2 (⟨i.val, by omega⟩ : Fin 48) h) := by
    funext i h; exact hwa i h _ rfl
  have e4 : (fun (i : Fin 16) (h : Fin 64) => wb (ix2 i h)) = fun i h => w1 (ix2 (⟨16 + i.val, by omega⟩ : Fin 48) h) := by
    funext i h; exact hwb i h _ rfl
  have e5 : (fun h : Fin 64 => ∑ g : Fin 128, onehot (b (ix2 p k)) g * tb (ix2 g h)) = table u w1 b1 (rowOf (batch (ix1 e))) := by
    funext h
    rw [hb p k e (by omega)]
    simp only [htb]
    exact sum_onehot_clip (batch (ix1 e)) (hnn e) (fun g => table u w1 b1 g h)
  have e6 : (fun (h : Fin 64) (j : Fin 16) => w2' (ix2 h j)) = fun h j => w2 (ix2 h j) := by
    funext h j; exact hw2 h j
  have e7 : (fun j : Fin 16 => b2' (ix1 j)) = fun j => b2 (ix1 j) := by
    funext j; exact hb2 j
  rw [e1, e2, e3, e4, e5, e6, e7]

end Cert.EdgeModel

end
-- ==== Proof.HostArrays.lean ====
/-
  What the kernel program's arrays hold when its region is entered, read at one index.

  Before the region the program clips the graph ids to [0, 127], reshapes the three edge arrays [1600000, 16] to the
  packed layout [200000, 128] and the clipped ids [1600000] to [200000, 8], cuts the first weight [48, 64] into its three
  row blocks of 16, multiplies u [128, 16] by the last block and adds the first bias (the table), and narrows the two
  other blocks, the table and the second weight to the 16-bit format, which over the extended reals is the identity.

  A reshape keeps the row-major position: packed entry (R, l) of an edge array is entry (e, i) with
  16 e + i = 128 R + l, that is e = 8 R + l / 16 and i = l mod 16; packed entry (R, k) of the ids is id 8 R + k.
  A cut of rows from o reads row o + i. The product read at (g, h) is the 16-term sum over the contracted index, and
  the bias, broadcast [64] -> [1, 64] -> [128, 64], reads b1[h].

  Each array is first stated whole, as the composed term of the operations that write it over the launched contents of
  the arguments, and then read at an index.
-/
import proofs.«403488_j5909875000172_3_alg».proof.Proof.Gen.KernelIdeal.Frame
import proofs.«403488_j5909875000172_3_alg».proof.Proof.BlockSpec
import proofs.«403488_j5909875000172_3_alg».proof.Proof.BodyProducts
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.HostSide
open Cert.KernelIdeal Cert.KernelIdeal.Gen Idealize.ShloMosaic Idealize.ShloMosaic.TcCoe Idealize.ShloMosaic.ValueIdx Idealize.SL.Sem Cert.EdgeModel
variable (m : (ℓ : Loc nD τ sig) → Buf (Elt Ideal) ℓ)

/-! ## The arrays whole -/

/-- The packed source features: the reshape of src. -/
theorem src_array (c : Dev nD) :
    (V m c main_v1 : S200000x128.Idx → EReal)
      = shapeCast S200000x128 (m ((c : Thread nD τ).loc main_arg0) : S1600000x16.Idx → EReal) shapeCasts_S1600000x16_S200000x128 := by
  dsimp only [Gen.V, Gen.V0]
  simp only [Gen.hostOps0, Gen.hostOps0_1, Gen.hostOps0_2, List.flatten_cons, List.flatten_nil, List.append_nil,
    List.cons_append, List.nil_append]
  after_results
  all_goals rfl

/-- The packed destination features: the reshape of dest. -/
theorem dest_array (c : Dev nD) :
    (V m c main_v2 : S200000x128.Idx → EReal)
      = shapeCast S200000x128 (m ((c : Thread nD τ).loc main_arg1) : S1600000x16.Idx → EReal) shapeCasts_S1600000x16_S200000x128 := by
  dsimp only [Gen.V, Gen.V0]
  simp only [Gen.hostOps0, Gen.hostOps0_1, Gen.hostOps0_2, List.flatten_cons, List.flatten_nil, List.append_nil,
    List.cons_append, List.nil_append]
  after_results
  all_goals rfl

/-- The packed edge attributes: the reshape of edge_attr. -/
theorem attr_array (c : Dev nD) :
    (V m c main_v3 : S200000x128.Idx → EReal)
      = shapeCast S200000x128 (m ((c : Thread nD τ).loc main_arg2) : S1600000x16.Idx → EReal) shapeCasts_S1600000x16_S200000x128 := by
  dsimp only [Gen.V, Gen.V0]
  simp only [Gen.hostOps0, Gen.hostOps0_1, Gen.hostOps0_2, List.flatten_cons, List.flatten_nil, List.append_nil,
    List.cons_append, List.nil_append]
  after_results
  all_goals rfl

/-- The packed ids: the reshape of min 127 (max 0 batch), both signed, the bounds broadcast scalars. -/
theorem ids_array (c : Dev nD) :
    (V m c main_v4 : S200000x8.Idx → BitVec 32)
      = shapeCast S200000x8
          (minsi (broadcastInDim S1600000 ![] bcast_S_S1600000 (constantI S_ 32 127#32))
            (maxsi (broadcastInDim S1600000 ![] bcast_S_S1600000 (constantI S_ 32 0#32))
              (m ((c : Thread nD τ).loc main_arg4) : S1600000.Idx → BitVec 32)))
          shapeCasts_S1600000_S200000x8 := by
  dsimp only [Gen.V, Gen.V0]
  simp only [Gen.hostOps0, Gen.hostOps0_1, Gen.hostOps0_2, List.flatten_cons, List.flatten_nil, List.append_nil,
    List.cons_append, List.nil_append]
  after_results
  all_goals rfl

/-- The first row block of W1 (rows 0 to 15), narrowed. -/
theorem wa_array (c : Dev nD) :
    (V m c main_v12 : S16x64.Idx → EReal)
      = truncf (F := Ideal) .bf16 (extractStridedSlice S16x64 ![0, 0] (m ((c : Thread nD τ).loc main_arg5) : FVec Ideal S48x64 .f32) slices_S48x64_S16x64_0_0) bitsLt_bf16_f32 := by
  dsimp only [Gen.V, Gen.V0]
  simp only [Gen.hostOps0, Gen.hostOps0_1, Gen.hostOps0_2, List.flatten_cons, List.flatten_nil, List.append_nil,
    List.cons_append, List.nil_append]
  after_results
  all_goals rfl

/-- The second row block of W1 (rows 16 to 31), narrowed. -/
theorem wb_array (c : Dev nD) :
    (V m c main_v13 : S16x64.Idx → EReal)
      = truncf (F := Ideal) .bf16 (extractStridedSlice S16x64 ![16, 0] (m ((c : Thread nD τ).loc main_arg5) : FVec Ideal S48x64 .f32) slices_S48x64_S16x64_16_0) bitsLt_bf16_f32 := by
  dsimp only [Gen.V, Gen.V0]
  simp only [Gen.hostOps0, Gen.hostOps0_1, Gen.hostOps0_2, List.flatten_cons, List.flatten_nil, List.append_nil,
    List.cons_append, List.nil_append]
  after_results
  all_goals rfl

/-- The table: u times the third row block of W1 (rows 32 to 47), plus b1 broadcast along the rows, narrowed. -/
theorem tb_array (c : Dev nD) :
    (V m c main_v14 : S128x64.Idx → EReal)
      = truncf (F := Ideal) .bf16
          (addf (F := Ideal)
            (Host.dotGeneral (F := Ideal) (φ₁ := .f32) (φ₂ := .f32) dot_S128x16_S16x64_S128x64_1_0_0_1_n_n none
              (m ((c : Thread nD τ).loc main_arg3) : FVec Ideal S128x16 .f32)
              (extractStridedSlice S16x64 ![32, 0] (m ((c : Thread nD τ).loc main_arg5) : FVec Ideal S48x64 .f32) slices_S48x64_S16x64_32_0))
            (broadcastInDim S128x64 ![0, 1] bcast_S1x64_S128x64_0_1
              (broadcastInDim S1x64 ![1] bcast_S64_S1x64_1 (m ((c : Thread nD τ).loc main_arg6) : FVec Ideal S64 .f32))))
          bitsLt_bf16_f32 := by
  dsimp only [Gen.V, Gen.V0]
  simp only [Gen.hostOps0, Gen.hostOps0_1, Gen.hostOps0_2, List.flatten_cons, List.flatten_nil, List.append_nil,
    List.cons_append, List.nil_append]
  after_results
  all_goals rfl

/-- The second weight, narrowed. -/
theorem w2_array (c : Dev nD) :
    (V m c main_v15 : S64x16.Idx → EReal)
      = truncf (F := Ideal) .bf16 (m ((c : Thread nD τ).loc main_arg7) : FVec Ideal S64x16 .f32) bitsLt_bf16_f32 := by
  dsimp only [Gen.V, Gen.V0]
  simp only [Gen.hostOps0, Gen.hostOps0_1, Gen.hostOps0_2, List.flatten_cons, List.flatten_nil, List.append_nil,
    List.cons_append, List.nil_append]
  after_results
  all_goals rfl

/-! ## The host product [128, 16] x [16, 64] at an entry -/

theorem table_dot_lhs_0 (i : S128x64.Idx) (q : dot_S128x16_S16x64_S128x64_1_0_0_1_n_n.contr.Idx) :
    (dot_S128x16_S16x64_S128x64_1_0_0_1_n_n.lhsIdx i q 0).val = (i 0).val := by
  unfold DotDims.lhsIdx
  rw [dif_neg (show ¬(0 : Fin S128x16.rank) ∈ dot_S128x16_S16x64_S128x64_1_0_0_1_n_n.lhsBatch by decide), dif_pos (show (0 : Fin S128x16.rank) ∈ dot_S128x16_S16x64_S128x64_1_0_0_1_n_n.lhsNonContracting by decide)]
  rfl
theorem table_dot_lhs_1 (i : S128x64.Idx) (q : dot_S128x16_S16x64_S128x64_1_0_0_1_n_n.contr.Idx) :
    (dot_S128x16_S16x64_S128x64_1_0_0_1_n_n.lhsIdx i q 1).val = (q ⟨0, by decide⟩).val :=
  dot_S128x16_S16x64_S128x64_1_0_0_1_n_n.lhsIdx_val_of_single rfl i q
theorem table_dot_rhs_0 (i : S128x64.Idx) (q : dot_S128x16_S16x64_S128x64_1_0_0_1_n_n.contr.Idx) :
    (dot_S128x16_S16x64_S128x64_1_0_0_1_n_n.rhsIdx i q 0).val = (q ⟨0, by decide⟩).val :=
  dot_S128x16_S16x64_S128x64_1_0_0_1_n_n.rhsIdx_val_of_single rfl i q
theorem table_dot_rhs_1 (i : S128x64.Idx) (q : dot_S128x16_S16x64_S128x64_1_0_0_1_n_n.contr.Idx) :
    (dot_S128x16_S16x64_S128x64_1_0_0_1_n_n.rhsIdx i q 1).val = (i 1).val := by
  unfold DotDims.rhsIdx
  rw [dif_neg (show ¬(1 : Fin S16x64.rank) ∈ dot_S128x16_S16x64_S128x64_1_0_0_1_n_n.rhsBatch by decide), dif_pos (show (1 : Fin S16x64.rank) ∈ dot_S128x16_S16x64_S128x64_1_0_0_1_n_n.rhsNonContracting by decide)]
  rfl

/-- Entry (g, h) of the host product [128, 16] x [16, 64] is the 16-term sum of row g of the left factor against column h
    of the right one. -/
theorem table_dot_apply {φ₁ φ₂ : FTy} (l : FVec Ideal S128x16 φ₁) (r : FVec Ideal S16x64 φ₂) (g : Fin 128) (h : Fin 64) :
    Host.dotGeneral (F := Ideal) dot_S128x16_S16x64_S128x64_1_0_0_1_n_n none l r (ix2 g h) = ∑ k : Fin 16, l (ix2 g k) * r (ix2 k h) := by
  simp only [Host.dotGeneral]
  rw [Ideal.dotGeneral_apply, ← Equiv.sum_comp (contrEquiv1 dot_S128x16_S16x64_S128x64_1_0_0_1_n_n 16 rfl rfl).symm]
  refine Finset.sum_congr rfl fun k _ => ?_
  have hk := contrEquiv1_symm_val dot_S128x16_S16x64_S128x64_1_0_0_1_n_n 16 rfl rfl k
  have el : dot_S128x16_S16x64_S128x64_1_0_0_1_n_n.lhsIdx (ix2 g h) ((contrEquiv1 dot_S128x16_S16x64_S128x64_1_0_0_1_n_n 16 rfl rfl).symm k) = ix2 g k := funext fun a => Fin.ext (by
    match a with
    | ⟨0, _⟩ => exact table_dot_lhs_0 _ _
    | ⟨1, _⟩ => exact (table_dot_lhs_1 _ _).trans hk)
  have er : dot_S128x16_S16x64_S128x64_1_0_0_1_n_n.rhsIdx (ix2 g h) ((contrEquiv1 dot_S128x16_S16x64_S128x64_1_0_0_1_n_n 16 rfl rfl).symm k) = ix2 k h := funext fun a => Fin.ext (by
    match a with
    | ⟨0, _⟩ => exact (table_dot_rhs_0 _ _).trans hk
    | ⟨1, _⟩ => exact table_dot_rhs_1 _ _)
  rw [el, er]

/-! ## The arrays at an index -/

/-- Packed entry (R, l) of the source features is src[e, i], e = 8 R + l / 16, i = l mod 16: both have row-major
    position 128 R + l = 16 e + i. -/
theorem V_src (c : Dev nD) (R : Fin 200000) (l : Fin 128) (e : Fin 1600000) (i : Fin 16)
    (he : e.val = 8 * R.val + l.val / 16) (hi : i.val = l.val % 16) :
    (V m c main_v1 : S200000x128.Idx → EReal) (ix2 R l) = (m ((c : Thread nD τ).loc main_arg0) : S1600000x16.Idx → EReal) (ix2 e i) := by
  rw [src_array m c]
  refine shapeCast_apply _ _ (ix2 R l) (ix2 e i) ?_
  rw [Shape.rowMajor_val_two, Shape.rowMajor_val_two]
  show e.val * 16 + i.val = R.val * 128 + l.val
  omega

/-- The same for the destination features. -/
theorem V_dest (c : Dev nD) (R : Fin 200000) (l : Fin 128) (e : Fin 1600000) (i : Fin 16)
    (he : e.val = 8 * R.val + l.val / 16) (hi : i.val = l.val % 16) :
    (V m c main_v2 : S200000x128.Idx → EReal) (ix2 R l) = (m ((c : Thread nD τ).loc main_arg1) : S1600000x16.Idx → EReal) (ix2 e i) := by
  rw [dest_array m c]
  refine shapeCast_apply _ _ (ix2 R l) (ix2 e i) ?_
  rw [Shape.rowMajor_val_two, Shape.rowMajor_val_two]
  show e.val * 16 + i.val = R.val * 128 + l.val
  omega

/-- The same for the edge attributes. -/
theorem V_attr (c : Dev nD) (R : Fin 200000) (l : Fin 128) (e : Fin 1600000) (i : Fin 16)
    (he : e.val = 8 * R.val + l.val / 16) (hi : i.val = l.val % 16) :
    (V m c main_v3 : S200000x128.Idx → EReal) (ix2 R l) = (m ((c : Thread nD τ).loc main_arg2) : S1600000x16.Idx → EReal) (ix2 e i) := by
  rw [attr_array m c]
  refine shapeCast_apply _ _ (ix2 R l) (ix2 e i) ?_
  rw [Shape.rowMajor_val_two, Shape.rowMajor_val_two]
  show e.val * 16 + i.val = R.val * 128 + l.val
  omega

/-- Packed entry (R, k) of the ids is the clipped id of edge 8 R + k. -/
theorem V_ids (c : Dev nD) (R : Fin 200000) (k : Fin 8) (e : Fin 1600000) (he : e.val = 8 * R.val + k.val) :
    (V m c main_v4 : S200000x8.Idx → BitVec 32) (ix2 R k)
      = IntOp.minsi 127#32 (IntOp.maxsi 0#32 ((m ((c : Thread nD τ).loc main_arg4) : S1600000.Idx → BitVec 32) (ix1 e))) := by
  rw [ids_array m c]
  refine (shapeCast_apply _ _ (ix2 R k) (ix1 e) ?_).trans ?_
  · rw [Shape.rowMajor_val_one, Shape.rowMajor_val_two]
    show e.val = R.val * 8 + k.val
    omega
  · rfl

/-- Row i of the first block is row i of W1. -/
theorem V_wa (c : Dev nD) (i : Fin 16) (h : Fin 64) (q : Fin 48) (hq : q.val = i.val) :
    (V m c main_v12 : S16x64.Idx → EReal) (ix2 i h) = (m ((c : Thread nD τ).loc main_arg5) : S48x64.Idx → EReal) (ix2 q h) := by
  rw [wa_array m c, truncf_apply]
  exact slice2_axis0_apply 0 _ _ i h q (by omega)

/-- Row i of the second block is row 16 + i of W1. -/
theorem V_wb (c : Dev nD) (i : Fin 16) (h : Fin 64) (q : Fin 48) (hq : q.val = 16 + i.val) :
    (V m c main_v13 : S16x64.Idx → EReal) (ix2 i h) = (m ((c : Thread nD τ).loc main_arg5) : S48x64.Idx → EReal) (ix2 q h) := by
  rw [wb_array m c, truncf_apply]
  exact slice2_axis0_apply 16 _ _ i h q hq

/-- Entry (g, h) of the table is sum_i u[g, i] * W1[32 + i, h] + b1[h]: the edge model's table. -/
theorem V_tb (c : Dev nD) (g : Fin 128) (h : Fin 64) :
    (V m c main_v14 : S128x64.Idx → EReal) (ix2 g h)
      = table (m ((c : Thread nD τ).loc main_arg3)) (m ((c : Thread nD τ).loc main_arg5)) (m ((c : Thread nD τ).loc main_arg6)) g h := by
  rw [tb_array m c, truncf_apply, addf_apply, table_dot_apply]
  unfold EdgeModel.table
  congr 1
  · refine Finset.sum_congr rfl fun k _ => ?_
    congr 1
    exact slice2_axis0_apply 32 _ _ k h _ rfl
  · refine (broadcastInDim_apply _ bcast_S1x64_S128x64_0_1 _ (ix2 g h) (ix2 (0 : Fin 1) h) (fun a => ?_)).trans
      (broadcastInDim_apply _ bcast_S64_S1x64_1 _ (ix2 (0 : Fin 1) h) (ix1 h) (fun a => ?_))
    · match a with
      | ⟨0, _⟩ => show 0 = if (1 : Nat) = 1 then 0 else g.val; rw [if_pos rfl]
      | ⟨1, _⟩ => show h.val = if (64 : Nat) = 1 then 0 else h.val; rw [if_neg (by decide)]
    · match a with
      | ⟨0, _⟩ => show h.val = if (64 : Nat) = 1 then 0 else h.val; rw [if_neg (by decide)]

/-- The second weight is read as launched. -/
theorem V_w2 (c : Dev nD) (h : Fin 64) (j : Fin 16) :
    (V m c main_v15 : S64x16.Idx → EReal) (ix2 h j) = (m ((c : Thread nD τ).loc main_arg7) : S64x16.Idx → EReal) (ix2 h j) := by
  rw [w2_array m c, truncf_apply]

end Cert.KernelIdeal.HostSide
end
-- ==== Proof.ArrayValue.lean ====
/-
  The kernel program's result array.

  The region's ten windows: three feature arrays, the ids and the output stream one block of 2000 packed rows per
  grid point; the three weights, the table and the last bias stay resident. So point t's input blocks are rows
  2000 t .. of the packed arrays, its output block is (BlockValue.lean) the block function of them, which is
  (PackedModel.lean) block t of the packed edge model; the hundred output blocks tile the packed array; and the one
  host operation after the region reshapes the packed array back to one edge per row.
-/
import proofs.«403488_j5909875000172_3_alg».proof.Proof.Gen.KernelIdeal.Frame
import proofs.«403488_j5909875000172_3_alg».proof.Proof.BlockValue
import proofs.«403488_j5909875000172_3_alg».proof.Proof.PackedModel
import proofs.«403488_j5909875000172_3_alg».proof.Proof.HostArrays
import Idealize.ShloMosaic.Lib.StableHlo.Run
import Idealize.ShloMosaic.Lib.Pipeline.Value
import Idealize.ShloMosaic.Lib.ValueIdx

noncomputable section

open scoped BigOperators

namespace Cert.KernelIdeal.ArrayValue

open Cert.KernelIdeal Cert.KernelIdeal.Gen Cert.KernelIdeal.Body Cert.KernelIdeal.HostSide
open Idealize.ShloMosaic Idealize.ShloMosaic.TcCoe Idealize.ShloMosaic.ValueIdx Idealize.SL.Sem Cert.EdgeModel

variable (m : (ℓ : Loc nD τ sig) → Buf (Elt Ideal) ℓ) (ρ : Dev nD → PrngReg)

/-! ## Where each window's block sits -/

/-- The index maps over the grid: the five streamed windows (three feature arrays, the ids, the output) move one block
    of 2000 packed rows per point; the five resident ones stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The nine input blocks at point t, each at its literal type. -/
abbrev blk0 (c : Dev nD) (t : Fin cfg0.N) : Vec Ideal S2000x128 .f32 := iblk m c 0 t
abbrev blk1 (c : Dev nD) (t : Fin cfg0.N) : Vec Ideal S2000x128 .f32 := iblk m c 1 t
abbrev blk2 (c : Dev nD) (t : Fin cfg0.N) : Vec Ideal S2000x128 .f32 := iblk m c 2 t
abbrev blk3 (c : Dev nD) (t : Fin cfg0.N) : Vec Ideal S2000x8 .i32 := iblk m c 3 t
abbrev blk4 (c : Dev nD) (t : Fin cfg0.N) : Vec Ideal S16x64 .bf16 := iblk m c 4 t
abbrev blk5 (c : Dev nD) (t : Fin cfg0.N) : Vec Ideal S16x64 .bf16 := iblk m c 5 t
abbrev blk6 (c : Dev nD) (t : Fin cfg0.N) : Vec Ideal S128x64 .bf16 := iblk m c 6 t
abbrev blk7 (c : Dev nD) (t : Fin cfg0.N) : Vec Ideal S64x16 .bf16 := iblk m c 7 t
abbrev blk8 (c : Dev nD) (t : Fin cfg0.N) : Vec Ideal S16 .f32 := iblk m c 8 t

/-- A streamed feature block at (p, l) is its packed array at packed row 2000 t + p, lane l. -/
theorem blk0_apply (c : Dev nD) (t : Fin cfg0.N) (p : Fin 2000) (l : Fin 128) (R : Fin 200000) (hR : R.val = 2000 * t.val + p.val) :
    blk0 m c t (ix2 p l) = (V m c main_v1 : S200000x128.Idx → EReal) (ix2 R l) := by
  obtain ⟨h0, h1, -⟩ := idx_facts t
  show (V m c main_v1 : S200000x128.Idx → EReal) (((cfg0.win 0).blk t).view.emb (ix2 p l)) = _
  refine congrArg (V m c main_v1 : S200000x128.Idx → EReal) (funext fun a => Fin.ext ?_)
  match a with
  | ⟨0, _⟩ => show win0_0.index t (0 : Fin 2) * 2000 + 1 * p.val = R.val; rw [h0, hR]; omega
  | ⟨1, _⟩ => show win0_0.index t (1 : Fin 2) * 128 + 1 * l.val = l.val; rw [h1]; omega
theorem blk1_apply (c : Dev nD) (t : Fin cfg0.N) (p : Fin 2000) (l : Fin 128) (R : Fin 200000) (hR : R.val = 2000 * t.val + p.val) :
    blk1 m c t (ix2 p l) = (V m c main_v2 : S200000x128.Idx → EReal) (ix2 R l) := by
  obtain ⟨-, -, h0, h1, -⟩ := idx_facts t
  show (V m c main_v2 : S200000x128.Idx → EReal) (((cfg0.win 1).blk t).view.emb (ix2 p l)) = _
  refine congrArg (V m c main_v2 : S200000x128.Idx → EReal) (funext fun a => Fin.ext ?_)
  match a with
  | ⟨0, _⟩ => show win0_1.index t (0 : Fin 2) * 2000 + 1 * p.val = R.val; rw [h0, hR]; omega
  | ⟨1, _⟩ => show win0_1.index t (1 : Fin 2) * 128 + 1 * l.val = l.val; rw [h1]; omega
theorem blk2_apply (c : Dev nD) (t : Fin cfg0.N) (p : Fin 2000) (l : Fin 128) (R : Fin 200000) (hR : R.val = 2000 * t.val + p.val) :
    blk2 m c t (ix2 p l) = (V m c main_v3 : S200000x128.Idx → EReal) (ix2 R l) := by
  obtain ⟨-, -, -, -, h0, h1, -⟩ := idx_facts t
  show (V m c main_v3 : S200000x128.Idx → EReal) (((cfg0.win 2).blk t).view.emb (ix2 p l)) = _
  refine congrArg (V m c main_v3 : S200000x128.Idx → EReal) (funext fun a => Fin.ext ?_)
  match a with
  | ⟨0, _⟩ => show win0_2.index t (0 : Fin 2) * 2000 + 1 * p.val = R.val; rw [h0, hR]; omega
  | ⟨1, _⟩ => show win0_2.index t (1 : Fin 2) * 128 + 1 * l.val = l.val; rw [h1]; omega
/-- The id block at (p, k) is the packed id array at packed row 2000 t + p, column k. -/
theorem blk3_apply (c : Dev nD) (t : Fin cfg0.N) (p : Fin 2000) (k : Fin 8) (R : Fin 200000) (hR : R.val = 2000 * t.val + p.val) :
    blk3 m c t (ix2 p k) = (V m c main_v4 : S200000x8.Idx → BitVec 32) (ix2 R k) := by
  obtain ⟨-, -, -, -, -, -, h0, h1, -⟩ := idx_facts t
  show (V m c main_v4 : S200000x8.Idx → BitVec 32) (((cfg0.win 3).blk t).view.emb (ix2 p k)) = _
  refine congrArg (V m c main_v4 : S200000x8.Idx → BitVec 32) (funext fun a => Fin.ext ?_)
  match a with
  | ⟨0, _⟩ => show win0_3.index t (0 : Fin 2) * 2000 + 1 * p.val = R.val; rw [h0, hR]; omega
  | ⟨1, _⟩ => show win0_3.index t (1 : Fin 2) * 8 + 1 * k.val = k.val; rw [h1]; omega
/-- A resident block is its whole array. -/
theorem blk4_apply (c : Dev nD) (t : Fin cfg0.N) (i : Fin 16) (h : Fin 64) :
    blk4 m c t (ix2 i h) = (V m c main_v12 : S16x64.Idx → EReal) (ix2 i h) := by
  obtain ⟨-, -, -, -, -, -, -, -, h0, h1, -⟩ := idx_facts t
  show (V m c main_v12 : S16x64.Idx → EReal) (((cfg0.win 4).blk t).view.emb (ix2 i h)) = _
  refine congrArg (V m c main_v12 : S16x64.Idx → EReal) (funext fun a => Fin.ext ?_)
  match a with
  | ⟨0, _⟩ => show win0_4.index t (0 : Fin 2) * 16 + 1 * i.val = i.val; rw [h0]; omega
  | ⟨1, _⟩ => show win0_4.index t (1 : Fin 2) * 64 + 1 * h.val = h.val; rw [h1]; omega
theorem blk5_apply (c : Dev nD) (t : Fin cfg0.N) (i : Fin 16) (h : Fin 64) :
    blk5 m c t (ix2 i h) = (V m c main_v13 : S16x64.Idx → EReal) (ix2 i h) := by
  obtain ⟨-, -, -, -, -, -, -, -, -, -, h0, h1, -⟩ := idx_facts t
  show (V m c main_v13 : S16x64.Idx → EReal) (((cfg0.win 5).blk t).view.emb (ix2 i h)) = _
  refine congrArg (V m c main_v13 : S16x64.Idx → EReal) (funext fun a => Fin.ext ?_)
  match a with
  | ⟨0, _⟩ => show win0_5.index t (0 : Fin 2) * 16 + 1 * i.val = i.val; rw [h0]; omega
  | ⟨1, _⟩ => show win0_5.index t (1 : Fin 2) * 64 + 1 * h.val = h.val; rw [h1]; omega
theorem blk6_apply (c : Dev nD) (t : Fin cfg0.N) (g : Fin 128) (h : Fin 64) :
    blk6 m c t (ix2 g h) = (V m c main_v14 : S128x64.Idx → EReal) (ix2 g h) := by
  obtain ⟨-, -, -, -, -, -, -, -, -, -, -, -, h0, h1, -⟩ := idx_facts t
  show (V m c main_v14 : S128x64.Idx → EReal) (((cfg0.win 6).blk t).view.emb (ix2 g h)) = _
  refine congrArg (V m c main_v14 : S128x64.Idx → EReal) (funext fun a => Fin.ext ?_)
  match a with
  | ⟨0, _⟩ => show win0_6.index t (0 : Fin 2) * 128 + 1 * g.val = g.val; rw [h0]; omega
  | ⟨1, _⟩ => show win0_6.index t (1 : Fin 2) * 64 + 1 * h.val = h.val; rw [h1]; omega
theorem blk7_apply (c : Dev nD) (t : Fin cfg0.N) (h : Fin 64) (j : Fin 16) :
    blk7 m c t (ix2 h j) = (V m c main_v15 : S64x16.Idx → EReal) (ix2 h j) := by
  obtain ⟨-, -, -, -, -, -, -, -, -, -, -, -, -, -, h0, h1, -⟩ := idx_facts t
  show (V m c main_v15 : S64x16.Idx → EReal) (((cfg0.win 7).blk t).view.emb (ix2 h j)) = _
  refine congrArg (V m c main_v15 : S64x16.Idx → EReal) (funext fun a => Fin.ext ?_)
  match a with
  | ⟨0, _⟩ => show win0_7.index t (0 : Fin 2) * 64 + 1 * h.val = h.val; rw [h0]; omega
  | ⟨1, _⟩ => show win0_7.index t (1 : Fin 2) * 16 + 1 * j.val = j.val; rw [h1]; omega
theorem blk8_apply (c : Dev nD) (t : Fin cfg0.N) (j : Fin 16) :
    blk8 m c t (ix1 j) = (m ((c : Thread nD τ).loc main_arg8) : S16.Idx → EReal) (ix1 j) := by
  obtain ⟨-, -, -, -, -, -, -, -, -, -, -, -, -, -, -, -, h0, -⟩ := idx_facts t
  rw [← V_main_arg8 m c]
  show (V m c main_arg8 : S16.Idx → EReal) (((cfg0.win 8).blk t).view.emb (ix1 j)) = _
  refine congrArg (V m c main_arg8 : S16.Idx → EReal) (funext fun a => Fin.ext ?_)
  match a with
  | ⟨0, _⟩ => show win0_8.index t (0 : Fin 1) * 16 + 1 * j.val = j.val; rw [h0]; omega

/-! ## The output array after the region -/

/-- The edge model of the launch memory's nine arguments, in the packed layout the kernel writes. -/
abbrev result (c : Dev nD) : S200000x128.Idx → EReal :=
  packed (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

/-- What point t writes back is block t of the packed edge model, when every id is nonnegative. -/
theorem flushed_eq (hnn : ∀ (c : Dev nD) (e : Fin 1600000), ((m ((c : Thread nD τ).loc main_arg4) : S1600000.Idx → BitVec 32) (ix1 e)).toNat < 2 ^ 31)
    (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  show (cfg0.win 9).cut (grid0.coords t) (out0_9 (blk0 m c t) (blk1 m c t) (blk2 m c t) (blk3 m c t) (blk4 m c t) (blk5 m c t) (blk6 m c t) (blk7 m c t) (blk8 m c t)) = _
  rw [out0_9_eq]
  have hN : cfg0.N = 100 := N_0
  have ht := t.isLt
  obtain ⟨-, -, -, -, -, -, -, -, -, -, -, -, -, -, -, -, -, h90, h91⟩ := idx_facts t
  funext y
  obtain ⟨p, l, rfl⟩ : ∃ (p : Fin 2000) (l : Fin 128), y = ix2 p l := ⟨y 0, y 1, eq_ix2 y⟩
  have hp := p.isLt
  have hl := l.isLt
  show blockArr (blk0 m c t) (blk1 m c t) (blk2 m c t) (blk3 m c t) (blk4 m c t) (blk5 m c t) (blk6 m c t) (blk7 m c t) (blk8 m c t) (ix2 p l) = result m c (((cfg0.win 9).blk t).view.emb (ix2 p l))
  refine block_is_model (blk0 m c t) (blk1 m c t) (blk2 m c t) (blk3 m c t) (blk4 m c t) (blk5 m c t) (blk6 m c t) (blk7 m c t) (blk8 m c t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val
    (fun p l e i he hi => (blk0_apply m c t p l ⟨2000 * t.val + p.val, by have := p.isLt; omega⟩ rfl).trans
      (V_src m c _ l e i (by show e.val = 8 * (2000 * t.val + p.val) + l.val / 16; omega) hi))
    (fun p l e i he hi => (blk1_apply m c t p l ⟨2000 * t.val + p.val, by have := p.isLt; omega⟩ rfl).trans
      (V_dest m c _ l e i (by show e.val = 8 * (2000 * t.val + p.val) + l.val / 16; omega) hi))
    (fun p l e i he hi => (blk2_apply m c t p l ⟨2000 * t.val + p.val, by have := p.isLt; omega⟩ rfl).trans
      (V_attr m c _ l e i (by show e.val = 8 * (2000 * t.val + p.val) + l.val / 16; omega) hi))
    (fun p k e he => (blk3_apply m c t p k ⟨2000 * t.val + p.val, by have := p.isLt; omega⟩ rfl).trans
      (V_ids m c _ k e (by show e.val = 8 * (2000 * t.val + p.val) + k.val; omega)))
    (fun i h q hq => (blk4_apply m c t i h).trans (V_wa m c i h q hq))
    (fun i h q hq => (blk5_apply m c t i h).trans (V_wb m c i h q hq))
    (fun g h => (blk6_apply m c t g h).trans (V_tb m c g h))
    (fun h j => (blk7_apply m c t h j).trans (V_w2 m c h j))
    (fun j => blk8_apply m c t j)
    (hnn c) p l _ _ ?_ ?_
  · show 8 * (win0_9.index t (0 : Fin 2) * 2000 + 1 * p.val) + (win0_9.index t (1 : Fin 2) * 128 + 1 * l.val) / 16
      = 8 * (2000 * t.val + p.val) + l.val / 16
    rw [h90, h91]; omega
  · show (win0_9.index t (1 : Fin 2) * 128 + 1 * l.val) % 16 = l.val % 16
    rw [h91]; omega

/-- Every index of the packed output array lies in the block of the point its packed row names. -/
theorem covered (i : S200000x128.Idx) :
    ∃ t : Fin cfg0.N, (cfg0.win 9).flush t = true ∧ i ∈ ((cfg0.win 9).blk t).view.set := by
  have hN : cfg0.N = 100 := N_0
  have hi0 : (i 0).val < 200000 := (i 0).isLt
  have hi1 : (i 1).val < 128 := (i 1).isLt
  let t : Fin cfg0.N := ⟨(i 0).val / 2000, by rw [hN]; omega⟩
  obtain ⟨-, -, -, -, -, -, -, -, -, -, -, -, -, -, -, -, -, h90, h91⟩ := idx_facts t
  refine ⟨t, flush0_9 t, ?_⟩
  show i ∈ ((View.whole main_v16).slice (win0_9.rect t)).set
  rw [View.set_slice_whole, Rect.mem_set_unit]
  intro a
  match a with
  | ⟨0, _⟩ =>
    show win0_9.index t (0 : Fin 2) * 2000 ≤ (i 0).val ∧ (i 0).val < win0_9.index t (0 : Fin 2) * 2000 + 2000
    rw [h90]; show (i 0).val / 2000 * 2000 ≤ (i 0).val ∧ (i 0).val < (i 0).val / 2000 * 2000 + 2000; omega
  | ⟨1, _⟩ =>
    show win0_9.index t (1 : Fin 2) * 128 ≤ (i 1).val ∧ (i 1).val < win0_9.index t (1 : Fin 2) * 128 + 128
    rw [h91]; omega

/-- So the packed output array ends holding the packed edge model. -/
theorem final (hnn : ∀ (c : Dev nD) (e : Fin 1600000), ((m ((c : Thread nD τ).loc main_arg4) : S1600000.Idx → BitVec 32) (ix1 e)).toNat < 2 ^ 31)
    (c : Dev nD) : (dats m 0 c).arrAt 9 cfg0.N = result m c :=
  (dats m 0 c).arrAt_eq_of_cover 9 (result m c) (fun t _ => flushed_eq m hnn c t) covered

/-! ## The reshape after the region, and the run -/

/-- The program's result: the packed output array reshaped back to one edge per row, which is the edge model. -/
theorem tail_eq (hnn : ∀ (c : Dev nD) (e : Fin 1600000), ((m ((c : Thread nD τ).loc main_arg4) : S1600000.Idx → BitVec 32) (ix1 e)).toNat < 2 ^ 31)
    (c : Dev nD) :
    Pipeline.afterTail₀ cfgs (dats m) 0 (V0 m) [hostOps1] c main_v17
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v17) = _
  after_results
  rw [Pipeline.withArrays_arr spec0 launch0.win.arr_inj c _ _ 9, final m hnn c]
  exact unpack _ _

/-- The kernel program's run, read: it terminates with its result at the edge model of its arguments, and the
    arguments unchanged. -/
theorem run (hnn : ∀ (c : Dev nD) (e : Fin 1600000), ((m ((c : Thread nD τ).loc main_arg4) : S1600000.Idx → BitVec 32) (ix1 e)).toNat < 2 ^ 31) :
    θ_run defs (onTc (τ := τ) (main (F := Ideal))) ⟨m, fun _ => 0, ρ⟩ fun r => ∀ c : Dev nD,
      r.2.mem ((c.tc : Thread nD τ).loc main_v17) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨((h c).2 main_v17 (Pipeline.mem_restRefs_of main_v17 (by decide) (by decide))).trans (tail_eq m hnn c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c),
       ((h c).2 main_arg7 (Pipeline.mem_restRefs_of main_arg7 (by decide) (by decide))).trans (W_main_arg7 m (dats m) c),
       ((h c).1 8).trans (((dats m 0 c).arrAt_in 8 rfl _).trans ((A_eq m c 8).trans (V_main_arg8 m c)))⟩)
    (run_main m ρ)

end Cert.KernelIdeal.ArrayValue

end
-- ==== Proof.lean ====
/-
  The kernel (EdgeModelDiff on 1 600 000 edges, eight edges packed per 128-lane row, grid of 100 blocks of 2000
  packed rows) against its reference  relu([dest - src, attr, u[batch]] @ W1 + b1) @ W2 + b2,  over the extended reals.

  Both programs compute, for edge e and feature j, the SAME function of the nine arguments (EdgeSpec.lean: G):
  the reference directly (RefIsSpec.lean); the kernel through the packed layout, its body's eight sub-rows
  (BodyRow.lean, BlockValue.lean), the table u @ W1[32:48] + b1 it builds on the host (HostArrays.lean), and the
  indicator row of the clipped graph id, which picks that table's row (BlockSpec.lean, PackedModel.lean,
  ArrayValue.lean). The two agree where every graph id is nonnegative: there the reference's index, the id clamped
  from above at 127, is the kernel's clip of the id to [0, 127] (GraphId.lean). For a negative id the reference
  counts from the table's end while the kernel clips to row 0, so the claim carries the precondition batch >= 0,
  read back in BatchRange.lean. No finiteness of a float input is used: the regrouping of the first layer's sum is
  associativity of addition, and the indicator's 0 and 1 multiply as 0 * x = 0 and 1 * x = x on every extended real.
  The three frames are the generated ones; the ideal pass rewrote nothing, so "preserves" is trivial.
-/
import proofs.«403488_j5909875000172_3_alg».proof.Defs
import proofs.«403488_j5909875000172_3_alg».proof.Proof.Gen.Kernel
import proofs.«403488_j5909875000172_3_alg».proof.Proof.Gen.Kernel.Skeleton
import proofs.«403488_j5909875000172_3_alg».proof.Proof.Gen.Kernel.Launch
import proofs.«403488_j5909875000172_3_alg».proof.Proof.Gen.Kernel.Points
import proofs.«403488_j5909875000172_3_alg».proof.Proof.Gen.Kernel.Frame
import proofs.«403488_j5909875000172_3_alg».proof.Proof.Gen.KernelIdeal
import proofs.«403488_j5909875000172_3_alg».proof.Proof.Gen.KernelIdeal.Skeleton
import proofs.«403488_j5909875000172_3_alg».proof.Proof.Gen.KernelIdeal.Launch
import proofs.«403488_j5909875000172_3_alg».proof.Proof.Gen.KernelIdeal.Points
import proofs.«403488_j5909875000172_3_alg».proof.Proof.Gen.KernelIdeal.Frame
import proofs.«403488_j5909875000172_3_alg».proof.Proof.Gen.ReferenceIdeal
import proofs.«403488_j5909875000172_3_alg».proof.Proof.Gen.Pre_finite_inputs
import proofs.«403488_j5909875000172_3_alg».proof.Proof.Gen.ReferenceIdeal.Run
import proofs.«403488_j5909875000172_3_alg».proof.Proof.Gen.ReferenceIdeal.Read
import proofs.«403488_j5909875000172_3_alg».proof.Proof.RefIsSpec
import proofs.«403488_j5909875000172_3_alg».proof.Proof.BatchRange
import proofs.«403488_j5909875000172_3_alg».proof.Proof.ArrayValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at the edge model G of the (agreeing) arguments. -/
theorem algebraic : Cert.algebraic_KernelIdeal_ReferenceIdeal := by
  intro m ρ m' ρ' hpre hagree
  have hnn : ∀ (c : Dev Cert.KernelIdeal.nD) (e : Fin 1600000),
      ((m ((c.tc : Thread Cert.KernelIdeal.nD Cert.KernelIdeal.τ).loc Cert.KernelIdeal.main_arg4)
        : Cert.KernelIdeal.S1600000.Idx → BitVec 32) (ix1 e)).toNat < 2 ^ 31 :=
    fun c e => Cert.Pre_finite_inputs.Decode.batch_nonneg _ _ _ _ _ _ _ _ _ (hpre c) e
  refine ⟨fun c => Cert.EdgeModel.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.ArrayValue.run m ρ hnn, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v17_eq, a0, a1, a2, a3, a4, a5, a6, a7, a8]
  exact Cert.ReferenceIdeal.RefValue.ref_is_edge_model _ _ _ _ _ _ _ _ _ (hnn c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
